-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x40 : Shape := ⟨2, ![96, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x96 : S_.BroadcastsInDim S512x96 (![] : Fin 0 → Fin S512x96.rank)
  reducesTo_S512x96_S_d0_1 : S512x96.ReducesTo [0, 1] S_
  bcast_S_S96 : S_.BroadcastsInDim S96 (![] : Fin 0 → Fin S96.rank)
  reducesTo_S96_S_d0 : S96.ReducesTo [0] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S96x40 1) : IVec S_ 1 :=
  let main_c_5 : IVec S_ 1 := constantI S_ 1 1#1
  let main_v17 : IVec S_ 1 := (fun x v => Host.reduce IntOp.andi x v reducesTo_S96x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x96 .f32) (main_arg3 : FVec F S96 .f32) (main_arg4 : FVec F S96x40 .f32) (main_arg5 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x96 .f32 := Host.absf main_arg2
  let main_cst_0 : FVec F S_ .f32 := constant S_ .f32 0x7F800000#32
  let main_v5 : FVec F S512x96 .f32 := broadcastInDim S512x96 ![] bcast_S_S512x96 main_cst_0
  let main_v6 : IVec S512x96 1 := cmpf .olt main_v4 main_v5
  let main_c_1 : IVec S_ 1 := constantI S_ 1 1#1
  let main_v7 : IVec S_ 1 := (fun x v => Host.reduce IntOp.andi x v reducesTo_S512x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x40 .f32 := Host.absf main_arg4
  let main_cst_4 : FVec F S_ .f32 := constant S_ .f32 0x7F800000#32
  let main_v15 : FVec F S96x40 .f32 := broadcastInDim S96x40 ![] bcast_S_S96x40 main_cst_4
  let main_v16 : IVec S96x40 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S2000x512 : Shape := ⟨2, ![2000, 512]⟩
abbrev S2000x96 : Shape := ⟨2, ![2000, 96]⟩
abbrev S850000x96 : Shape := ⟨2, ![850000, 96]⟩
abbrev S1x96 : Shape := ⟨2, ![1, 96]⟩
abbrev S5000x96 : Shape := ⟨2, ![5000, 96]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 88
  | .vmem => 22
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x96, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x96, .f32⟩
  | .hbm, ⟨59, _⟩ => ⟨S850000x1, .f32⟩
  | .hbm, ⟨60, _⟩ => ⟨S850000x96, .f32⟩
  | .hbm, ⟨61, _⟩ => ⟨S850000x96, .f32⟩
  | .hbm, ⟨62, _⟩ => ⟨S_, .f32⟩
  | .hbm, ⟨63, _⟩ => ⟨S50000x96, .f32⟩
  | .hbm, ⟨64, _⟩ => ⟨S850000x1, .i32⟩
  | .hbm, ⟨65, _⟩ => ⟨S50000x96, .f32⟩
  | .hbm, ⟨66, _⟩ => ⟨S1x96, .f32⟩
  | .hbm, ⟨67, _⟩ => ⟨S50000x96, .f32⟩
  | .hbm, ⟨68, _⟩ => ⟨S50000x40, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x40, .f32⟩
  | .hbm, ⟨78, _⟩ => ⟨S850000x1, .f32⟩
  | .hbm, ⟨79, _⟩ => ⟨S850000x40, .f32⟩
  | .hbm, ⟨80, _⟩ => ⟨S850000x40, .f32⟩
  | .hbm, ⟨81, _⟩ => ⟨S_, .f32⟩
  | .hbm, ⟨82, _⟩ => ⟨S50000x40, .f32⟩
  | .hbm, ⟨83, _⟩ => ⟨S850000x1, .i32⟩
  | .hbm, ⟨84, _⟩ => ⟨S50000x40, .f32⟩
  | .hbm, ⟨85, _⟩ => ⟨S1x40, .f32⟩
  | .hbm, ⟨86, _⟩ => ⟨S50000x40, .f32⟩
  | .hbm, ⟨87, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x96, .f32⟩
  | .local _ .vmem, ⟨3, _⟩ => ⟨S2000x96, .f32⟩
  | .local _ .vmem, ⟨4, _⟩ => ⟨S2000x96, .f32⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S2000x96, .f32⟩
  | .local _ .vmem, ⟨11, _⟩ => ⟨S2000x96, .f32⟩
  | .local _ .vmem, ⟨12, _⟩ => ⟨S96x40, .f32⟩
  | .local _ .vmem, ⟨13, _⟩ => ⟨S2000x40, .f32⟩
  | .local _ .vmem, ⟨14, _⟩ => ⟨S2000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63_0 : Ref sig .tc := ⟨.hbm, 86, rfl⟩
abbrev main_v63_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x96_S512x96_0_0 : ∀ a, (![0, 0] : Fin 2 → Nat) a + S512x96.size a ≤ S512x96.size a
  h_S512x96 : 0 < S512x96.numel
  inb_S2000x96_S2000x96_0_0 : ∀ a, (![0, 0] : Fin 2 → Nat) a + S2000x96.size a ≤ S2000x96.size a
  h_S2000x96 : 0 < S2000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  shapeCasts_S2000x96_S2000x96 : S2000x96.ShapeCasts S2000x96
  inb_S96x40_S96x40_0_0 : ∀ a, (![0, 0] : Fin 2 → Nat) a + S96x40.size a ≤ S96x40.size a
  h_S96x40 : 0 < S96x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x96_S2000x96_1_0_0_1_n_n_wf : DotDims.WF S2000x512 S512x96 S2000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S2000x96_S96x40_S2000x40_1_0_0_1_n_n_wf : DotDims.WF S2000x96 S96x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x96.size a ≤ S512x96.size a
  hwx0_1 : ∀ i : grid0.Coords, EltTy.bits .f32 = 32 ∨ (Rect.block (s := S512x96) S512x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x40.size a ≤ S96x40.size a
  hwx2_1 : ∀ i : grid2.Coords, EltTy.bits .f32 = 32 ∨ (Rect.block (s := S96x40) S96x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S50000x40.size a
  hwx3_3 : ∀ i : grid3.Coords, EltTy.bits .f32 = 32 ∨ (Rect.block (s := S50000x40) S5000x40.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x96_S2000x96_1_0_0_1_n_n : DotDims S2000x512 S512x96 S2000x96 where
  lhsContracting := [1]
  rhsContracting := [0]
  lhsNonContracting := [0]
  rhsNonContracting := [1]
  lhsBatch := []
  rhsBatch := []
  wf := dot_S2000x512_S512x96_S2000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S2000x96_S96x40_S2000x40_1_0_0_1_n_n : DotDims S2000x96 S96x40 S2000x40 where
  lhsContracting := [1]
  rhsContracting := [0]
  lhsNonContracting := [0]
  rhsNonContracting := [1]
  lhsBatch := []
  rhsBatch := []
  wf := dot_S2000x96_S96x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S96x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63_0) S5000x40.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63_1) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x96 : Shape := ⟨2, ![50000, 96]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 143
  | .vmem => 0
  | .smem => 0
  | _ => 0

abbrev hbmTy0_0 (i : Nat) : BufTy := match i % 128 with
  | 0 => ⟨S50000x512, .f32⟩
  | 1 => ⟨S2x800000, .i32⟩
  | 2 => ⟨S512x96, .f32⟩
  | 3 => ⟨S96, .f32⟩
  | 4 => ⟨S96x40, .f32⟩
  | 5 => ⟨S40, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S50000x96, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x96, .f32⟩
  | 59 => ⟨S850000x1, .f32⟩
  | 60 => ⟨S850000x96, .f32⟩
  | 61 => ⟨S850000x96, .f32⟩
  | 62 => ⟨S_, .f32⟩
  | 63 => ⟨S50000x96, .f32⟩
  | 64 => ⟨S850000x1, .i32⟩
  | 65 => ⟨S50000x96, .f32⟩
  | 66 => ⟨S1x96, .f32⟩
  | 67 => ⟨S50000x96, .f32⟩
  | 68 => ⟨S50000x96, .f32⟩
  | 69 => ⟨S_, .f32⟩
  | 70 => ⟨S50000x96, .f32⟩
  | 71 => ⟨S50000x96, .f32⟩
  | 72 => ⟨S50000x40, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S_, .f32⟩
  | 83 => ⟨S50000, .f32⟩
  | 84 => ⟨S50000, .f32⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x40, .f32⟩
  | 118 => ⟨S850000x1, .f32⟩
  | 119 => ⟨S850000x40, .f32⟩
  | 120 => ⟨S850000x40, .f32⟩
  | 121 => ⟨S_, .f32⟩
  | 122 => ⟨S50000x40, .f32⟩
  | 123 => ⟨S850000x1, .i32⟩
  | 124 => ⟨S50000x40, .f32⟩
  | 125 => ⟨S1x40, .f32⟩
  | 126 => ⟨S50000x40, .f32⟩
  | 127 => ⟨S50000x40, .f32⟩
  | _ => ⟨S50000x512, .f32⟩

abbrev hbmTy0_1 (i : Nat) : BufTy := match i % 128 with
  | 0 => ⟨S_, .f32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x40, .f32⟩
  | 7 => ⟨S50000x40, .f32⟩
  | 8 => ⟨S50000x40, .f32⟩
  | 9 => ⟨S_, .f32⟩
  | 10 => ⟨S50000, .f32⟩
  | 11 => ⟨S50000x1, .f32⟩
  | 12 => ⟨S50000x1, .f32⟩
  | 13 => ⟨S50000x40, .f32⟩
  | 14 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v92 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x512_S512x96_S50000x96_1_0_0_1_n_n_wf : DotDims.WF S50000x512 S512x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x40_S50000x40_1_0_0_1_n_n_wf : DotDims.WF S50000x96 S96x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def dot_S50000x512_S512x96_S50000x96_1_0_0_1_n_n : DotDims S50000x512 S512x96 S50000x96 where
  lhsContracting := [1]
  rhsContracting := [0]
  lhsNonContracting := [0]
  rhsNonContracting := [1]
  lhsBatch := []
  rhsBatch := []
  wf := dot_S50000x512_S512x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Spec.lean ====
/-
  What each of the four kernel launches of the two-layer graph convolution computes, as ONE function of whole arrays.

  A layer is: transform the node features by a dense matrix (`dense1`, `dense2`: a product summed over the feature
  axis), gather the transformed rows along the edges, scale by the symmetric degree normalisation and sum into the
  destination rows (the host does that part in both programs, so it is never opened), then add the bias row.
  Layer one ends with a rectifier (`biasRelu`: max(a + b, 0), the bias a single row repeated down the node axis);
  layer two ends with the logits (`biasAdd`) and their row-wise log-softmax (`logSoftmax`): subtract the row's maximum,
  then subtract the logarithm of the row's sum of exponentials. Every function is spelled with the host operations
  the reference program applies to the whole arrays, so that the reference's stages are these functions on the nose.
-/
import proofs.«115687_j9603546874307_1_alg».proof.ReferenceIdeal
import proofs.«115687_j9603546874307_1_alg».proof.Proof.Gen.ReferenceIdeal

noncomputable section

namespace Cert.GcnSpec

open Cert.ReferenceIdeal Cert.ReferenceIdeal.Gen Idealize.ShloMosaic Idealize.ShloMosaic.TcCoe Idealize.SL.Sem

variable {F : FTy → Type} [FloatOps F]

/-- Layer one's feature transform: node features [50000, 512] times weights [512, 96]. -/
def dense1 (x : (⟨S50000x512, .f32⟩ : BufTy).Contents (Elt F)) (w : (⟨S512x96, .f32⟩ : BufTy).Contents (Elt F)) :
    (⟨S50000x96, .f32⟩ : BufTy).Contents (Elt F) :=
  Host.dotGeneral dot_S50000x512_S512x96_S50000x96_1_0_0_1_n_n none x w

/-- Layer two's feature transform: hidden features [50000, 96] times weights [96, 40]. -/
def dense2 (h : (⟨S50000x96, .f32⟩ : BufTy).Contents (Elt F)) (w : (⟨S96x40, .f32⟩ : BufTy).Contents (Elt F)) :
    (⟨S50000x40, .f32⟩ : BufTy).Contents (Elt F) :=
  Host.dotGeneral dot_S50000x96_S96x40_S50000x40_1_0_0_1_n_n none h w

/-- The rectified hidden layer: max(a + b, 0) with the bias row `b` repeated down the node axis. -/
def biasRelu (a : (⟨S50000x96, .f32⟩ : BufTy).Contents (Elt F)) (b : (⟨S1x96, .f32⟩ : BufTy).Contents (Elt F)) :
    (⟨S50000x96, .f32⟩ : BufTy).Contents (Elt F) :=
  maximumf (addf a (broadcastInDim S50000x96 ![0, 1] bcast_S1x96_S50000x96_0_1 b))
    (broadcastInDim S50000x96 ![] bcast_S_S50000x96 (constant S_ .f32 0x00000000#32))

/-- The logits: a + b with the bias row `b` repeated down the node axis. -/
def biasAdd (a : (⟨S50000x40, .f32⟩ : BufTy).Contents (Elt F)) (b : (⟨S1x40, .f32⟩ : BufTy).Contents (Elt F)) :
    (⟨S50000x40, .f32⟩ : BufTy).Contents (Elt F) :=
  addf a (broadcastInDim S50000x40 ![0, 1] bcast_S1x40_S50000x40_0_1 b)

/-- Each row's maximum (taken from minus infinity, and once more against minus infinity, as jax spells it). -/
def rowMax (y : (⟨S50000x40, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf y (constant S_ .f32 0xFF800000#32) reducesTo_S50000x40_S50000_d1 h_S_)

/-- The logits shifted by their row's maximum. -/
def shifted (y : (⟨S50000x40, .f32⟩ : BufTy).Contents (Elt F)) : (⟨S50000x40, .f32⟩ : BufTy).Contents (Elt F) :=
  subf y (broadcastInDim S50000x40 ![0, 1] bcast_S50000x1_S50000x40_0_1
    (broadcastInDim S50000x1 ![0] bcast_S50000_S50000x1_0 (rowMax y)))

/-- The logarithm of each row's sum of exponentials of the shifted logits, kept as a column. -/
def logSumExp (y : (⟨S50000x40, .f32⟩ : BufTy).Contents (Elt F)) : (⟨S50000x1, .f32⟩ : BufTy).Contents (Elt F) :=
  Host.log (broadcastInDim S50000x1 ![0] bcast_S50000_S50000x1_0
    (Host.reduceAdd (Host.exp (shifted y)) (constant S_ .f32 0x00000000#32) reducesTo_S50000x40_S50000_d1 h_S_))

/-- Row-wise log-softmax: the shifted logits minus the logarithm of their row's sum of exponentials. -/
def logSoftmax (y : (⟨S50000x40, .f32⟩ : BufTy).Contents (Elt F)) : (⟨S50000x40, .f32⟩ : BufTy).Contents (Elt F) :=
  subf (shifted y) (broadcastInDim S50000x40 ![0, 1] bcast_S50000x1_S50000x40_0_1 (logSumExp y))

end Cert.GcnSpec

end
-- ==== Proof.FoldHost.lean ====
/-
  The kernel program's host stretches, one stretch and one buffer at a time, over ANY contents the stretch is entered with.

  Around its four launches the program prepares on the host what a graph convolution needs besides dense algebra:
  * the edge list with one self loop per node appended: source indices `srcOf e`, destination indices `dstOf e`;
  * the inverse square root of every node's in-degree (counted by summing ones into the destinations), zero where the
    degree is zero: `dinvOf d`;
  * each edge's normalisation, the product of that quantity at its two ends: `normOf s d q` (an index below zero is
    first wrapped by the node count, as jax spells a gather);
  * per layer the aggregation: gather the transformed rows at the sources, scale each by its edge's normalisation, sum
    into the destination rows: `aggregate96 h s d n`, `aggregate40 h s d n`;
  * the bias vector as one row.
  Each lemma says: after the stretch, from contents `U`, this buffer holds that function of `U`'s buffers; or, for a
  buffer the stretch does not write, what it held. No gather and no segment sum is opened.
-/
import proofs.«115687_j9603546874307_1_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable {F : FTy → Type} [FloatOps F]

/-! ## The functions -/

/-- Source indices: row 0 of the edge list, then one self loop per node. -/
def srcOf (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- Destination indices: row 1 of the edge list, then one self loop per node. -/
def dstOf (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- Every node's in-degree: ones summed into the destinations. -/
def degOf (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant (F := F) S_ .f32 0x00000000#32))
    (broadcastInDim S850000x1 ![0] bcast_S850000_S850000x1_0 d)
    (broadcastInDim S850000 ![] bcast_S_S850000 (constant (F := F) S_ .f32 0x3F800000#32))

/-- Where the degree is positive. -/
def degPos (d : (⟨S850000, .i32⟩ : BufTy).Contents (Elt F)) : (⟨S50000, .i1⟩ : BufTy).Contents (Elt F) :=
  cmpf .ogt (degOf d) (broadcastInDim S50000 ![] bcast_S_S50000 (constant (F := F) S_ .f32 0x00000000#32))

/-- The inverse square root of the degree, the degree first raised to at least one. -/
def degRsqrt (d : (⟨S850000, .i32⟩ : BufTy).Contents (Elt F)) : (⟨S50000, .f32⟩ : BufTy).Contents (Elt F) :=
  Host.rsqrt (maximumf (degOf d) (broadcastInDim S50000 ![] bcast_S_S50000 (constant (F := F) S_ .f32 0x3F800000#32)))

/-- The choice between a value and a zero splat under a mask. -/
def whereOf (g : (⟨S50000, .i1⟩ : BufTy).Contents (Elt F)) (r : (⟨S50000, .f32⟩ : BufTy).Contents (Elt F))
    (z : (⟨S_, .f32⟩ : BufTy).Contents (Elt F)) : (⟨S50000, .f32⟩ : BufTy).Contents (Elt F) :=
  select g r (broadcastInDim S50000 ![] bcast_S_S50000 (id z))

/-- The inverse square root of the degree, zero where the degree is zero. -/
def dinvOf (d : (⟨S850000, .i32⟩ : BufTy).Contents (Elt F)) : (⟨S50000, .f32⟩ : BufTy).Contents (Elt F) :=
  whereOf (degPos d) (degRsqrt d) (constant (F := F) S_ .f32 0x00000000#32)

/-- An index vector as the column a gather takes, an index below zero first wrapped by the node count. -/
def idxCol (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Each edge's normalisation: the per-node quantity `q` at the edge's source times `q` at its destination. -/
def normOf (s d : (⟨S850000, .i32⟩ : BufTy).Contents (Elt F)) (q : (⟨S50000, .f32⟩ : BufTy).Contents (Elt F)) :
    (⟨S850000, .f32⟩ : BufTy).Contents (Elt F) :=
  mulf (Host.gather gather_S50000_S850000x1_S850000_n_0_n_n_0_1_1 q (idxCol s))
    (Host.gather gather_S50000_S850000x1_S850000_n_0_n_n_0_1_1 q (idxCol d))

/-- Layer one's aggregation: rows of `h` gathered at the sources, scaled by the edge normalisation `n`, summed into the
    destinations. -/
def aggregate96 (h : (⟨S50000x96, .f32⟩ : BufTy).Contents (Elt F)) (s d : (⟨S850000, .i32⟩ : BufTy).Contents (Elt F))
    (n : (⟨S850000, .f32⟩ : BufTy).Contents (Elt F)) : (⟨S50000x96, .f32⟩ : BufTy).Contents (Elt F) :=
  Host.scatterAdd scatter_S50000x96_S850000x1_S850000x96_1_0_0_1
    (broadcastInDim S50000x96 ![] bcast_S_S50000x96 (constant (F := F) S_ .f32 0x00000000#32))
    (broadcastInDim S850000x1 ![0] bcast_S850000_S850000x1_0 d)
    (mulf (Host.gather gather_S50000x96_S850000x1_S850000x96_1_0_n_n_0_1_196 h (idxCol s))
      (broadcastInDim S850000x96 ![0, 1] bcast_S850000x1_S850000x96_0_1 (broadcastInDim S850000x1 ![0] bcast_S850000_S850000x1_0 n)))

/-- Layer two's aggregation, the same at 40 features. -/
def aggregate40 (h : (⟨S50000x40, .f32⟩ : BufTy).Contents (Elt F)) (s d : (⟨S850000, .i32⟩ : BufTy).Contents (Elt F))
    (n : (⟨S850000, .f32⟩ : BufTy).Contents (Elt F)) : (⟨S50000x40, .f32⟩ : BufTy).Contents (Elt F) :=
  Host.scatterAdd scatter_S50000x40_S850000x1_S850000x40_1_0_0_1
    (broadcastInDim S50000x40 ![] bcast_S_S50000x40 (constant (F := F) S_ .f32 0x00000000#32))
    (broadcastInDim S850000x1 ![0] bcast_S850000_S850000x1_0 d)
    (mulf (Host.gather gather_S50000x40_S850000x1_S850000x40_1_0_n_n_0_1_140 h (idxCol s))
      (broadcastInDim S850000x40 ![0, 1] bcast_S850000x1_S850000x40_0_1 (broadcastInDim S850000x1 ![0] bcast_S850000_S850000x1_0 n)))

variable (U : Valuation τ sig (Elt F))

/-! ## The first stretch: the edge list, the degrees -/

theorem s0_src : StableHlo.after (hostOps0 (F := F)) U (Proc.devRef .tc main_v3) = srcOf (U (Proc.devRef .tc main_arg1)) := by
  after_results; rfl
theorem s0_dst : StableHlo.after (hostOps0 (F := F)) U (Proc.devRef .tc main_v6) = dstOf (U (Proc.devRef .tc main_arg1)) := by
  after_results; rfl
theorem s0_pos : StableHlo.after (hostOps0 (F := F)) U (Proc.devRef .tc main_v12) = degPos (dstOf (U (Proc.devRef .tc main_arg1))) := by
  after_results; rfl
theorem s0_rsq : StableHlo.after (hostOps0 (F := F)) U (Proc.devRef .tc main_v15) = degRsqrt (dstOf (U (Proc.devRef .tc main_arg1))) := by
  after_results; rfl
theorem s0_zero : StableHlo.after (hostOps0 (F := F)) U (Proc.devRef .tc main_cst_3) = constant (F := F) S_ .f32 0x00000000#32 := by
  after_results
theorem s0_arg0 : StableHlo.after (hostOps0 (F := F)) U (Proc.devRef .tc main_arg0) = U (Proc.devRef .tc main_arg0) := by after_results
theorem s0_arg2 : StableHlo.after (hostOps0 (F := F)) U (Proc.devRef .tc main_arg2) = U (Proc.devRef .tc main_arg2) := by after_results
theorem s0_arg3 : StableHlo.after (hostOps0 (F := F)) U (Proc.devRef .tc main_arg3) = U (Proc.devRef .tc main_arg3) := by after_results
theorem s0_arg4 : StableHlo.after (hostOps0 (F := F)) U (Proc.devRef .tc main_arg4) = U (Proc.devRef .tc main_arg4) := by after_results
theorem s0_arg5 : StableHlo.after (hostOps0 (F := F)) U (Proc.devRef .tc main_arg5) = U (Proc.devRef .tc main_arg5) := by after_results

/-! ## The second stretch: zero where the degree is zero -/

theorem s01_dinv : StableHlo.after (hostOps0_1 (F := F)) U (Proc.devRef .tc main_v16)
    = whereOf (U (Proc.devRef .tc main_v12)) (U (Proc.devRef .tc main_v15)) (U (Proc.devRef .tc main_cst_3)) := by
  after_results; rfl
theorem s01_src : StableHlo.after (hostOps0_1 (F := F)) U (Proc.devRef .tc main_v3) = U (Proc.devRef .tc main_v3) := by after_results
theorem s01_dst : StableHlo.after (hostOps0_1 (F := F)) U (Proc.devRef .tc main_v6) = U (Proc.devRef .tc main_v6) := by after_results
theorem s01_arg0 : StableHlo.after (hostOps0_1 (F := F)) U (Proc.devRef .tc main_arg0) = U (Proc.devRef .tc main_arg0) := by after_results
theorem s01_arg2 : StableHlo.after (hostOps0_1 (F := F)) U (Proc.devRef .tc main_arg2) = U (Proc.devRef .tc main_arg2) := by after_results
theorem s01_arg3 : StableHlo.after (hostOps0_1 (F := F)) U (Proc.devRef .tc main_arg3) = U (Proc.devRef .tc main_arg3) := by after_results
theorem s01_arg4 : StableHlo.after (hostOps0_1 (F := F)) U (Proc.devRef .tc main_arg4) = U (Proc.devRef .tc main_arg4) := by after_results
theorem s01_arg5 : StableHlo.after (hostOps0_1 (F := F)) U (Proc.devRef .tc main_arg5) = U (Proc.devRef .tc main_arg5) := by after_results

/-! ## The third stretch: the edge normalisation -/

theorem s02_norm : StableHlo.after (hostOps0_2 (F := F)) U (Proc.devRef .tc main_v31)
    = normOf (U (Proc.devRef .tc main_v3)) (U (Proc.devRef .tc main_v6)) (U (Proc.devRef .tc main_v16)) := by
  after_results_simp; rfl
theorem s02_src : StableHlo.after (hostOps0_2 (F := F)) U (Proc.devRef .tc main_v3) = U (Proc.devRef .tc main_v3) := by after_results
theorem s02_dst : StableHlo.after (hostOps0_2 (F := F)) U (Proc.devRef .tc main_v6) = U (Proc.devRef .tc main_v6) := by after_results
theorem s02_arg0 : StableHlo.after (hostOps0_2 (F := F)) U (Proc.devRef .tc main_arg0) = U (Proc.devRef .tc main_arg0) := by after_results
theorem s02_arg2 : StableHlo.after (hostOps0_2 (F := F)) U (Proc.devRef .tc main_arg2) = U (Proc.devRef .tc main_arg2) := by after_results
theorem s02_arg3 : StableHlo.after (hostOps0_2 (F := F)) U (Proc.devRef .tc main_arg3) = U (Proc.devRef .tc main_arg3) := by after_results
theorem s02_arg4 : StableHlo.after (hostOps0_2 (F := F)) U (Proc.devRef .tc main_arg4) = U (Proc.devRef .tc main_arg4) := by after_results
theorem s02_arg5 : StableHlo.after (hostOps0_2 (F := F)) U (Proc.devRef .tc main_arg5) = U (Proc.devRef .tc main_arg5) := by after_results

/-! ## Between the first and the second launch: layer one's aggregation, the bias as a row -/

theorem s1_agg : StableHlo.after (hostOps1 (F := F)) U (Proc.devRef .tc main_v45)
    = aggregate96 (U (Proc.devRef .tc main_v32)) (U (Proc.devRef .tc main_v3)) (U (Proc.devRef .tc main_v6)) (U (Proc.devRef .tc main_v31)) := by
  after_results_simp; rfl
theorem s1_row : StableHlo.after (hostOps1 (F := F)) U (Proc.devRef .tc main_v46)
    = shapeCast S1x96 (U (Proc.devRef .tc main_arg3)) shapeCasts_S96_S1x96 := by
  after_results; rfl
theorem s1_src : StableHlo.after (hostOps1 (F := F)) U (Proc.devRef .tc main_v3) = U (Proc.devRef .tc main_v3) := by after_results
theorem s1_dst : StableHlo.after (hostOps1 (F := F)) U (Proc.devRef .tc main_v6) = U (Proc.devRef .tc main_v6) := by after_results
theorem s1_norm : StableHlo.after (hostOps1 (F := F)) U (Proc.devRef .tc main_v31) = U (Proc.devRef .tc main_v31) := by after_results
theorem s1_arg4 : StableHlo.after (hostOps1 (F := F)) U (Proc.devRef .tc main_arg4) = U (Proc.devRef .tc main_arg4) := by after_results
theorem s1_arg5 : StableHlo.after (hostOps1 (F := F)) U (Proc.devRef .tc main_arg5) = U (Proc.devRef .tc main_arg5) := by after_results

/-! ## Between the third and the fourth launch: layer two's aggregation, the bias as a row -/

theorem s3_agg : StableHlo.after (hostOps3 (F := F)) U (Proc.devRef .tc main_v61)
    = aggregate40 (U (Proc.devRef .tc main_v48)) (U (Proc.devRef .tc main_v3)) (U (Proc.devRef .tc main_v6)) (U (Proc.devRef .tc main_v31)) := by
  after_results_simp; rfl
theorem s3_row : StableHlo.after (hostOps3 (F := F)) U (Proc.devRef .tc main_v62)
    = shapeCast S1x40 (U (Proc.devRef .tc main_arg5)) shapeCasts_S40_S1x40 := by
  after_results; rfl

end Cert.KernelIdeal.Fold

end
-- ==== Proof.Forms.lean ====
/-
  The two results of the two-layer graph convolution as closed forms of its six arguments: node features, edge list, and
  the two layers' weights and biases. The graph enters only through three functions of the edge list (sources, destinations
  and the edge normalisation); a layer is a dense product, the aggregation along the edges, and the bias row; layer one
  ends in a rectifier, layer two in the logits and their row-wise log-softmax. Also here: equal operands give equal values,
  for each function the closed forms are built from.
-/
import proofs.«115687_j9603546874307_1_alg».proof.Proof.Spec
import proofs.«115687_j9603546874307_1_alg».proof.Proof.FoldHost

noncomputable section

namespace Cert.KernelIdeal.Fold

open Idealize.ShloMosaic Idealize.ShloMosaic.TcCoe Idealize.SL.Sem
open Cert.KernelIdeal Cert.KernelIdeal.Gen Cert.GcnSpec

/-! ## The closed forms -/

section Forms
variable {F : FTy → Type} [FloatOps F]

/-- The edge normalisation as a function of the edge list alone. -/
def edgeNorm (e : (⟨S2x800000, .i32⟩ : BufTy).Contents (Elt F)) : (⟨S850000, .f32⟩ : BufTy).Contents (Elt F) :=
  normOf (srcOf e) (dstOf e) (dinvOf (dstOf e))

/-- The hidden layer: relu of the aggregated first product plus the first bias. -/
def hiddenOf (x : (⟨S50000x512, .f32⟩ : BufTy).Contents (Elt F)) (e : (⟨S2x800000, .i32⟩ : BufTy).Contents (Elt F))
    (w1 : (⟨S512x96, .f32⟩ : BufTy).Contents (Elt F)) (b1 : (⟨S96, .f32⟩ : BufTy).Contents (Elt F)) :
    (⟨S50000x96, .f32⟩ : BufTy).Contents (Elt F) :=
  biasRelu (aggregate96 (dense1 x w1) (srcOf e) (dstOf e) (edgeNorm e)) (shapeCast S1x96 b1 shapeCasts_S96_S1x96)

/-- The logits: the aggregated second product plus the second bias. -/
def logitsOf (x : (⟨S50000x512, .f32⟩ : BufTy).Contents (Elt F)) (e : (⟨S2x800000, .i32⟩ : BufTy).Contents (Elt F))
    (w1 : (⟨S512x96, .f32⟩ : BufTy).Contents (Elt F)) (b1 : (⟨S96, .f32⟩ : BufTy).Contents (Elt F))
    (w2 : (⟨S96x40, .f32⟩ : BufTy).Contents (Elt F)) (b2 : (⟨S40, .f32⟩ : BufTy).Contents (Elt F)) :
    (⟨S50000x40, .f32⟩ : BufTy).Contents (Elt F) :=
  biasAdd (aggregate40 (dense2 (hiddenOf x e w1 b1) w2) (srcOf e) (dstOf e) (edgeNorm e)) (shapeCast S1x40 b2 shapeCasts_S40_S1x40)

/-- The log-probabilities: the row-wise log-softmax of the logits. -/
def logprobsOf (x : (⟨S50000x512, .f32⟩ : BufTy).Contents (Elt F)) (e : (⟨S2x800000, .i32⟩ : BufTy).Contents (Elt F))
    (w1 : (⟨S512x96, .f32⟩ : BufTy).Contents (Elt F)) (b1 : (⟨S96, .f32⟩ : BufTy).Contents (Elt F))
    (w2 : (⟨S96x40, .f32⟩ : BufTy).Contents (Elt F)) (b2 : (⟨S40, .f32⟩ : BufTy).Contents (Elt F)) :
    (⟨S50000x40, .f32⟩ : BufTy).Contents (Elt F) :=
  logSoftmax (logitsOf x e w1 b1 w2 b2)

/-! Equal operands give equal values: the functions above, argument by argument. -/

theorem whereOf_congr {g g' r r' z z'} (hg : g = g') (hr : r = r') (hz : z = z') : whereOf (F := F) g r z = whereOf g' r' z' := by
  subst hg hr hz; rfl
theorem normOf_congr {s s' d d' q q'} (hs : s = s') (hd : d = d') (hq : q = q') : normOf (F := F) s d q = normOf s' d' q' := by
  subst hs hd hq; rfl
theorem aggregate96_congr {h h' s s' d d' n n'} (hh : h = h') (hs : s = s') (hd : d = d') (hn : n = n') :
    aggregate96 (F := F) h s d n = aggregate96 h' s' d' n' := by subst hh hs hd hn; rfl
theorem aggregate40_congr {h h' s s' d d' n n'} (hh : h = h') (hs : s = s') (hd : d = d') (hn : n = n') :
    aggregate40 (F := F) h s d n = aggregate40 h' s' d' n' := by subst hh hs hd hn; rfl
theorem dense1_congr {x x' w w'} (hx : x = x') (hw : w = w') : dense1 (F := F) x w = dense1 x' w' := by subst hx hw; rfl
theorem dense2_congr {x x' w w'} (hx : x = x') (hw : w = w') : dense2 (F := F) x w = dense2 x' w' := by subst hx hw; rfl
theorem biasRelu_congr {a a' b b'} (ha : a = a') (hb : b = b') : biasRelu (F := F) a b = biasRelu a' b' := by subst ha hb; rfl
theorem biasAdd_congr {a a' b b'} (ha : a = a') (hb : b = b') : biasAdd (F := F) a b = biasAdd a' b' := by subst ha hb; rfl

end Forms

end Cert.KernelIdeal.Fold

end
-- ==== Proof.Region0.lean ====
/-
  The first launch: rows of the node table times the first weight matrix, 2000 rows a grid point, 25 points.
  After the launch its output array holds the whole product `dense1` of the two arrays it was entered with.
-/
import proofs.«115687_j9603546874307_1_alg».proof.Proof.Gen.KernelIdeal.Frame
import proofs.«115687_j9603546874307_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat)
open Cert.KernelIdeal Cert.KernelIdeal.Gen

-- the buffer contents the launch is entered with: any
variable (V : (c : Dev nD) → (b : Ref sig .tc) → Buf (Elt Ideal) ((c : Thread nD τ).loc b))

/-! ## The block product at an entry -/

theorem hz : (![0, 0] : Fin 2 → Nat) = fun _ => 0 := funext fun a => by fin_cases a <;> rfl

/-- The left operand of the block product is read at the output's row. -/
theorem lhs_blk_0 (i : S2000x96.Idx) (q : dot_S2000x512_S512x96_S2000x96_1_0_0_1_n_n.contr.Idx) :
    (dot_S2000x512_S512x96_S2000x96_1_0_0_1_n_n.lhsIdx i q 0).val = (i 0).val := by
  unfold DotDims.lhsIdx
  rw [dif_neg (show ¬(0 : Fin S2000x512.rank) ∈ dot_S2000x512_S512x96_S2000x96_1_0_0_1_n_n.lhsBatch by decide), dif_pos (show (0 : Fin S2000x512.rank) ∈ dot_S2000x512_S512x96_S2000x96_1_0_0_1_n_n.lhsNonContracting by decide)]
  rfl
/-- … and at the contraction index along its columns. -/
theorem lhs_blk_1 (i : S2000x96.Idx) (q : dot_S2000x512_S512x96_S2000x96_1_0_0_1_n_n.contr.Idx) :
    (dot_S2000x512_S512x96_S2000x96_1_0_0_1_n_n.lhsIdx i q 1).val = (q ⟨0, by decide⟩).val :=
  dot_S2000x512_S512x96_S2000x96_1_0_0_1_n_n.lhsIdx_val_of_single rfl i q
/-- The right operand is read at the contraction index along its rows … -/
theorem rhs_blk_0 (i : S2000x96.Idx) (q : dot_S2000x512_S512x96_S2000x96_1_0_0_1_n_n.contr.Idx) :
    (dot_S2000x512_S512x96_S2000x96_1_0_0_1_n_n.rhsIdx i q 0).val = (q ⟨0, by decide⟩).val :=
  dot_S2000x512_S512x96_S2000x96_1_0_0_1_n_n.rhsIdx_val_of_single rfl i q
/-- … and at the output's column. -/
theorem rhs_blk_1 (i : S2000x96.Idx) (q : dot_S2000x512_S512x96_S2000x96_1_0_0_1_n_n.contr.Idx) :
    (dot_S2000x512_S512x96_S2000x96_1_0_0_1_n_n.rhsIdx i q 1).val = (i 1).val := by
  unfold DotDims.rhsIdx
  rw [dif_neg (show ¬(1 : Fin S512x96.rank) ∈ dot_S2000x512_S512x96_S2000x96_1_0_0_1_n_n.rhsBatch by decide), dif_pos (show (1 : Fin S512x96.rank) ∈ dot_S2000x512_S512x96_S2000x96_1_0_0_1_n_n.rhsNonContracting by decide)]
  rfl

/-- Entry (p, q) of what the body computes from a block of rows `x0` and the weights `x1`: the sum over the feature
    axis of `x0[p, k] * x1[k, q]` (the narrowing to bf16 is the identity on ideal values, the accumulator is zero). -/
theorem blockProduct_apply (x0 : Vec Ideal S2000x512 .f32) (x1 : Vec Ideal S512x96 .f32) (p : Fin 2000) (q : Fin 96) :
    k0_pay1 (F := Ideal) x0 x1 (ValueIdx.ix2 p q) = ∑ k : Fin 512, x0 (ValueIdx.ix2 p k) * x1 (ValueIdx.ix2 k q) := by
  unfold k0_pay1
  refine (Ideal.matmul_constant_zero_apply dot_S2000x512_S512x96_S2000x96_1_0_0_1_n_n none _ _ (ValueIdx.ix2 p q)).trans ?_
  rw [← Equiv.sum_comp (ValueIdx.contrEquiv1 dot_S2000x512_S512x96_S2000x96_1_0_0_1_n_n 512 rfl rfl).symm]
  refine Finset.sum_congr rfl fun k _ => ?_
  rw [ValueIdx.truncf_apply, ValueIdx.truncf_apply]
  have hk := ValueIdx.contrEquiv1_symm_val dot_S2000x512_S512x96_S2000x96_1_0_0_1_n_n 512 rfl rfl k
  have el : dot_S2000x512_S512x96_S2000x96_1_0_0_1_n_n.lhsIdx (ValueIdx.ix2 p q) ((ValueIdx.contrEquiv1 dot_S2000x512_S512x96_S2000x96_1_0_0_1_n_n 512 rfl rfl).symm k) = ValueIdx.ix2 p k := funext fun a => Fin.ext (by
    match a with
    | ⟨0, _⟩ => exact lhs_blk_0 _ _
    | ⟨1, _⟩ => exact (lhs_blk_1 _ _).trans hk)
  have er : dot_S2000x512_S512x96_S2000x96_1_0_0_1_n_n.rhsIdx (ValueIdx.ix2 p q) ((ValueIdx.contrEquiv1 dot_S2000x512_S512x96_S2000x96_1_0_0_1_n_n 512 rfl rfl).symm k) = ValueIdx.ix2 k q := funext fun a => Fin.ext (by
    match a with
    | ⟨0, _⟩ => exact (rhs_blk_0 _ _).trans hk
    | ⟨1, _⟩ => exact rhs_blk_1 _ _)
  rw [el, er]

/-! ## The whole product at an entry -/

/-- The left operand of the whole product is read at the output's row. -/
theorem lhs_whole_0 (i : Cert.ReferenceIdeal.S50000x96.Idx) (q : Cert.ReferenceIdeal.dot_S50000x512_S512x96_S50000x96_1_0_0_1_n_n.contr.Idx) :
    (Cert.ReferenceIdeal.dot_S50000x512_S512x96_S50000x96_1_0_0_1_n_n.lhsIdx i q 0).val = (i 0).val := by
  unfold DotDims.lhsIdx
  rw [dif_neg (show ¬(0 : Fin Cert.ReferenceIdeal.S50000x512.rank) ∈ Cert.ReferenceIdeal.dot_S50000x512_S512x96_S50000x96_1_0_0_1_n_n.lhsBatch by decide), dif_pos (show (0 : Fin Cert.ReferenceIdeal.S50000x512.rank) ∈ Cert.ReferenceIdeal.dot_S50000x512_S512x96_S50000x96_1_0_0_1_n_n.lhsNonContracting by decide)]
  rfl
/-- … and at the contraction index along its columns. -/
theorem lhs_whole_1 (i : Cert.ReferenceIdeal.S50000x96.Idx) (q : Cert.ReferenceIdeal.dot_S50000x512_S512x96_S50000x96_1_0_0_1_n_n.contr.Idx) :
    (Cert.ReferenceIdeal.dot_S50000x512_S512x96_S50000x96_1_0_0_1_n_n.lhsIdx i q 1).val = (q ⟨0, by decide⟩).val :=
  Cert.ReferenceIdeal.dot_S50000x512_S512x96_S50000x96_1_0_0_1_n_n.lhsIdx_val_of_single rfl i q
/-- The right operand is read at the contraction index along its rows … -/
theorem rhs_whole_0 (i : Cert.ReferenceIdeal.S50000x96.Idx) (q : Cert.ReferenceIdeal.dot_S50000x512_S512x96_S50000x96_1_0_0_1_n_n.contr.Idx) :
    (Cert.ReferenceIdeal.dot_S50000x512_S512x96_S50000x96_1_0_0_1_n_n.rhsIdx i q 0).val = (q ⟨0, by decide⟩).val :=
  Cert.ReferenceIdeal.dot_S50000x512_S512x96_S50000x96_1_0_0_1_n_n.rhsIdx_val_of_single rfl i q
/-- … and at the output's column. -/
theorem rhs_whole_1 (i : Cert.ReferenceIdeal.S50000x96.Idx) (q : Cert.ReferenceIdeal.dot_S50000x512_S512x96_S50000x96_1_0_0_1_n_n.contr.Idx) :
    (Cert.ReferenceIdeal.dot_S50000x512_S512x96_S50000x96_1_0_0_1_n_n.rhsIdx i q 1).val = (i 1).val := by
  unfold DotDims.rhsIdx
  rw [dif_neg (show ¬(1 : Fin Cert.ReferenceIdeal.S512x96.rank) ∈ Cert.ReferenceIdeal.dot_S50000x512_S512x96_S50000x96_1_0_0_1_n_n.rhsBatch by decide), dif_pos (show (1 : Fin Cert.ReferenceIdeal.S512x96.rank) ∈ Cert.ReferenceIdeal.dot_S50000x512_S512x96_S50000x96_1_0_0_1_n_n.rhsNonContracting by decide)]
  rfl

/-- Entry (r, q) of the whole product: the sum over the feature axis of `x[r, k] * w[k, q]`. -/
theorem dense1_apply (x : (⟨Cert.ReferenceIdeal.S50000x512, .f32⟩ : BufTy).Contents (Elt Ideal)) (w : (⟨Cert.ReferenceIdeal.S512x96, .f32⟩ : BufTy).Contents (Elt Ideal))
    (r : Fin 50000) (q : Fin 96) :
    Cert.GcnSpec.dense1 (F := Ideal) x w (ValueIdx.ix2 r q) = ∑ k : Fin 512, x (ValueIdx.ix2 r k) * w (ValueIdx.ix2 k q) := by
  unfold Cert.GcnSpec.dense1
  simp only [Host.dotGeneral]
  rw [Ideal.dotGeneral_apply, ← Equiv.sum_comp (ValueIdx.contrEquiv1 Cert.ReferenceIdeal.dot_S50000x512_S512x96_S50000x96_1_0_0_1_n_n 512 rfl rfl).symm]
  refine Finset.sum_congr rfl fun k _ => ?_
  have hk := ValueIdx.contrEquiv1_symm_val Cert.ReferenceIdeal.dot_S50000x512_S512x96_S50000x96_1_0_0_1_n_n 512 rfl rfl k
  have el : Cert.ReferenceIdeal.dot_S50000x512_S512x96_S50000x96_1_0_0_1_n_n.lhsIdx (ValueIdx.ix2 r q) ((ValueIdx.contrEquiv1 Cert.ReferenceIdeal.dot_S50000x512_S512x96_S50000x96_1_0_0_1_n_n 512 rfl rfl).symm k) = ValueIdx.ix2 r k := funext fun a => Fin.ext (by
    match a with
    | ⟨0, _⟩ => exact lhs_whole_0 _ _
    | ⟨1, _⟩ => exact (lhs_whole_1 _ _).trans hk)
  have er : Cert.ReferenceIdeal.dot_S50000x512_S512x96_S50000x96_1_0_0_1_n_n.rhsIdx (ValueIdx.ix2 r q) ((ValueIdx.contrEquiv1 Cert.ReferenceIdeal.dot_S50000x512_S512x96_S50000x96_1_0_0_1_n_n 512 rfl rfl).symm k) = ValueIdx.ix2 k q := funext fun a => Fin.ext (by
    match a with
    | ⟨0, _⟩ => exact (rhs_whole_0 _ _).trans hk
    | ⟨1, _⟩ => exact rhs_whole_1 _ _)
  rw [el, er]

/-! ## From the blocks to the array -/

/-- The index maps over the grid: the row blocks of the node table and of the output move with the point, the
    weight matrix is one block that sits still. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of point `t`'s block of the node table is entry (2000 t + p, k) of the table. -/
theorem rows_read (c : Dev nD) (t : Fin cfg0.N) (p : Fin 2000) (k : Fin 512) (r : Fin 50000) (hr : r.val = t.val * 2000 + p.val) :
    (iblk0 V c 0 t : Vec Ideal S2000x512 .f32) (ValueIdx.ix2 p k) = (V c main_arg0 : S50000x512.Idx → Elt Ideal .f32) (ValueIdx.ix2 r k) := by
  obtain ⟨e0, e1, -⟩ := idx_facts t
  unfold iblk0
  rw [View.read_apply]
  show V c main_arg0 (((cfg0.win 0).blk t).view.emb (ValueIdx.ix2 p k)) = V c main_arg0 (ValueIdx.ix2 r k)
  congr 1
  funext a; apply Fin.ext
  match a with
  | ⟨0, _⟩ => show win0_0.index t (0 : Fin 2) * 2000 + 1 * p.val = r.val; omega
  | ⟨1, _⟩ => show win0_0.index t (1 : Fin 2) * 512 + 1 * k.val = k.val; omega

/-- Every point's block of the weight matrix is the matrix. -/
theorem weights_read (c : Dev nD) (t : Fin cfg0.N) (k : Fin 512) (q : Fin 96) :
    (iblk0 V c 1 t : Vec Ideal S512x96 .f32) (ValueIdx.ix2 k q) = (V c main_arg2 : S512x96.Idx → Elt Ideal .f32) (ValueIdx.ix2 k q) := by
  obtain ⟨-, -, e2, e3, -⟩ := idx_facts t
  unfold iblk0
  rw [View.read_apply]
  show V c main_arg2 (((cfg0.win 1).blk t).view.emb (ValueIdx.ix2 k q)) = V c main_arg2 (ValueIdx.ix2 k q)
  congr 1
  funext a; apply Fin.ext
  match a with
  | ⟨0, _⟩ => show win0_1.index t (0 : Fin 2) * 512 + 1 * k.val = k.val; omega
  | ⟨1, _⟩ => show win0_1.index t (1 : Fin 2) * 96 + 1 * q.val = q.val; omega

/-- Entry (p, q) of point `t`'s output block sits at (2000 t + p, q) of the output array. -/
theorem out_emb (t : Fin cfg0.N) (p : Fin 2000) (q : Fin 96) (r : Fin 50000) (hr : r.val = t.val * 2000 + p.val) :
    ((cfg0.win 2).blk t).view.emb (ValueIdx.ix2 p q) = (ValueIdx.ix2 r q : S50000x96.Idx) := by
  obtain ⟨-, -, -, -, e4, e5⟩ := idx_facts t
  funext a; apply Fin.ext
  match a with
  | ⟨0, _⟩ => show win0_2.index t (0 : Fin 2) * 2000 + 1 * p.val = r.val; omega
  | ⟨1, _⟩ => show win0_2.index t (1 : Fin 2) * 96 + 1 * q.val = q.val; omega

/-- What point `t` writes back is block `t` of the whole product. -/
theorem flushed_eq (c : Dev nD) (t : Fin cfg0.N) :
    (dat0 V c).flushed 2 t = ((cfg0.win 2).blk t).view.read (Elt Ideal) (Cert.GcnSpec.dense1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x96) hz]
  funext y
  obtain ⟨p, q, rfl⟩ : ∃ (p : Fin 2000) (q : Fin 96), y = ValueIdx.ix2 p q := ⟨y 0, y 1, ValueIdx.eq_ix2 y⟩
  have ht : t.val < 25 := lt_of_lt_of_eq t.isLt N_0
  have hp : p.val < 2000 := p.isLt
  show k0_pay1 (F := Ideal) (iblk0 V c 0 t) (iblk0 V c 1 t) (ValueIdx.ix2 p q)
    = Cert.GcnSpec.dense1 (F := Ideal) (V c main_arg0) (V c main_arg2) (((cfg0.win 2).blk t).view.emb (ValueIdx.ix2 p q))
  rw [out_emb t p q ⟨t.val * 2000 + p.val, by omega⟩ rfl, blockProduct_apply, dense1_apply]
  refine Finset.sum_congr rfl fun k _ => ?_
  rw [rows_read V c t p k ⟨t.val * 2000 + p.val, by omega⟩ rfl, weights_read V c t k q]

/-- An entry of the output array is in point `t`'s block iff each coordinate is in the block's range on its axis. -/
theorem mem_blk (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v32).slice (win0_2.rect t)).set ↔ _
  rw [View.set_slice_whole, Rect.mem_set_unit]
  exact Iff.rfl

/-- Every entry of the output array is written back by some point: row `r` by point `r / 2000`. -/
theorem cover (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  have hlt : (i 0).val / 2000 < cfg0.N := lt_of_lt_of_eq (show (i 0).val / 2000 < 25 by omega) N_0.symm
  obtain ⟨-, -, -, -, e4, e5⟩ := idx_facts ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_blk]
  intro a
  match a with
  | ⟨0, _⟩ => show win0_2.index ⟨(i 0).val / 2000, hlt⟩ (0 : Fin 2) * 2000 ≤ (i 0).val ∧ (i 0).val < win0_2.index ⟨(i 0).val / 2000, hlt⟩ (0 : Fin 2) * 2000 + 2000; omega
  | ⟨1, _⟩ => show win0_2.index ⟨(i 0).val / 2000, hlt⟩ (1 : Fin 2) * 96 ≤ (i 1).val ∧ (i 1).val < win0_2.index ⟨(i 0).val / 2000, hlt⟩ (1 : Fin 2) * 96 + 96; omega

/-- After the first launch the output array is the whole product of the node features and the weights it read. -/
theorem region0_value (c : Dev nD) :
    (dat0 V c).arrAt 2 cfg0.N = Cert.GcnSpec.dense1 (F := Ideal) (V c main_arg0) (V c main_arg2) :=
  (dat0 V c).arrAt_eq_of_cover 2 (Cert.GcnSpec.dense1 (F := Ideal) (V c main_arg0) (V c main_arg2)) (fun t _ => flushed_eq V c t) cover

end Cert.KernelIdeal.Region0

end
-- ==== Proof.Region1.lean ====
/-
  The second launch: bias and rectifier, 5000 rows a grid point, 10 points.
  After the launch its output array holds `biasRelu` of the aggregated features and the bias row it was entered with.
-/
import proofs.«115687_j9603546874307_1_alg».proof.Proof.Gen.KernelIdeal.Frame
import proofs.«115687_j9603546874307_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem
open Idealize.ShloMosaic.Pipeline (Dat)
open Cert.KernelIdeal Cert.KernelIdeal.Gen

-- the buffer contents the launch is entered with: any
variable (V : (c : Dev nD) → (b : Ref sig .tc) → Buf (Elt Ideal) ((c : Thread nD τ).loc b))

theorem hz : (![0, 0] : Fin 2 → Nat) = fun _ => 0 := funext fun a => by fin_cases a <;> rfl

/-- The launch's index maps over its ten grid points: the aggregate's block and the output's block are block `t` of
    their arrays' rows, all 96 lanes; the bias row is fetched whole at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body on a block, entry by entry: the aggregate's entry plus the bias at the entry's lane, then the maximum with
    zero. -/
theorem pay_apply (x0 : Vec Ideal S5000x96 .f32) (x1 : Vec Ideal S1x96 .f32) (y : S5000x96.Idx) (k : S1x96.Idx)
    (hk0 : (k 0).val = 0) (hk1 : (k 1).val = (y 1).val) :
    k1_pay1 (F := Ideal) x0 x1 y
      = FloatOps.maximumf (FloatOps.addf (x0 y) (x1 k)) (Scalar.ofBits (F := Ideal) .f32 0x00000000#32) := by
  have hb : broadcastTo S5000x96 x1 broadcasts_S1x96_S5000x96 y = x1 k :=
    broadcastTo_apply x1 broadcasts_S1x96_S5000x96 y k (fun a => match a with
      | ⟨0, _⟩ => by show (k 0).val = if (1 : Nat) = 1 then 0 else _; rw [if_pos rfl]; exact hk0
      | ⟨1, _⟩ => by show (k 1).val = if (96 : Nat) = 1 then 0 else (y 1).val; rw [if_neg (by decide)]; exact hk1)
  unfold k1_pay1
  rw [shapeCast_self, shapeCast_self]
  exact congrArg (fun w => FloatOps.maximumf (FloatOps.addf (x0 y) w) (Scalar.ofBits (F := Ideal) .f32 0x00000000#32)) hb

/-- The specification at an entry of the whole array: the same three operations, the bias row read at the entry's lane. -/
theorem biasRelu_apply (a : (⟨Cert.ReferenceIdeal.S50000x96, .f32⟩ : BufTy).Contents (Elt Ideal))
    (b : (⟨Cert.ReferenceIdeal.S1x96, .f32⟩ : BufTy).Contents (Elt Ideal)) (i : Cert.ReferenceIdeal.S50000x96.Idx)
    (k : Cert.ReferenceIdeal.S1x96.Idx) (hk0 : (k 0).val = 0) (hk1 : (k 1).val = (i 1).val) :
    Cert.GcnSpec.biasRelu (F := Ideal) a b i
      = FloatOps.maximumf (FloatOps.addf (a i) (b k)) (Scalar.ofBits (F := Ideal) .f32 0x00000000#32) := by
  unfold Cert.GcnSpec.biasRelu
  show FloatOps.maximumf (FloatOps.addf (a i) (broadcastInDim Cert.ReferenceIdeal.S50000x96 ![0, 1] Cert.ReferenceIdeal.Gen.bcast_S1x96_S50000x96_0_1 b i))
    (broadcastInDim Cert.ReferenceIdeal.S50000x96 ![] Cert.ReferenceIdeal.Gen.bcast_S_S50000x96 (constant (F := Ideal) Cert.ReferenceIdeal.S_ .f32 0x00000000#32) i) = _
  rw [broadcastInDim_apply _ Cert.ReferenceIdeal.Gen.bcast_S1x96_S50000x96_0_1 b i k (fun a => match a with
      | ⟨0, _⟩ => by show (k 0).val = if (1 : Nat) = 1 then 0 else (i 0).val; rw [if_pos rfl]; exact hk0
      | ⟨1, _⟩ => by show (k 1).val = if (96 : Nat) = 1 then 0 else (i 1).val; rw [if_neg (by decide)]; exact hk1),
    broadcastInDim_apply _ Cert.ReferenceIdeal.Gen.bcast_S_S50000x96 (constant (F := Ideal) Cert.ReferenceIdeal.S_ .f32 0x00000000#32) i
      (fun a => a.elim0) (fun a => a.elim0)]
  rfl

/-- What grid point `t` writes back is block `t` of the specification's whole array: row `r` of the block is row
    `5000 t + r` of the aggregate, and the bias row is the same at every point. -/
theorem flushed_eq (c : Dev nD) (t : Fin cfg1.N) :
    (dat1 V c).flushed 2 t
      = ((cfg1.win 2).blk t).view.read (Elt Ideal) (Cert.GcnSpec.biasRelu (F := Ideal) (V c main_v45) (V c main_v46)) := by
  show (cfg1.win 2).cut (grid1.coords t) ((dat1 V c).after 2 t) = _
  rw [after1_2]
  unfold out1_2
  rw [View.canon_unit_zero hz]
  simp only [View.ld_unit_zero (S := S5000x96) hz, View.ld_unit_zero (S := S1x96) hz]
  obtain ⟨e0, e1, e2, e3, e4, e5⟩ := idx_facts t
  refine funext fun (y : S5000x96.Idx) => ?_
  have hy1 : (y 1).val < 96 := (y 1).isLt
  obtain ⟨kk, hk0, hk1⟩ : ∃ kk : S1x96.Idx, (kk 0).val = 0 ∧ (kk 1).val = (y 1).val :=
    ⟨ValueIdx.ix2 (⟨0, Nat.one_pos⟩ : Fin 1) (⟨(y 1).val, hy1⟩ : Fin 96), rfl, rfl⟩
  rw [View.read_apply]
  refine (pay_apply (iblk1 V c 0 t) (iblk1 V c 1 t) y kk hk0 hk1).trans ?_
  refine Eq.trans ?_ (biasRelu_apply (V c main_v45) (V c main_v46) (((cfg1.win 2).blk t).view.emb y)
    (((cfg1.win 1).blk t).view.emb kk) ?_ ?_).symm
  · have h0 : ((cfg1.win 0).blk t).view.emb y = ((cfg1.win 2).blk t).view.emb y := by
      funext a; apply Fin.ext
      match a with
      | ⟨0, _⟩ => show win1_0.index t (0 : Fin 2) * 5000 + 1 * (y 0).val = win1_2.index t (0 : Fin 2) * 5000 + 1 * (y 0).val; omega
      | ⟨1, _⟩ => show win1_0.index t (1 : Fin 2) * 96 + 1 * (y 1).val = win1_2.index t (1 : Fin 2) * 96 + 1 * (y 1).val; omega
    have hA : iblk1 V c 0 t y = V c main_v45 (((cfg1.win 2).blk t).view.emb y) := by
      unfold iblk1; rw [View.read_apply]; exact congrArg (V c main_v45) h0
    have hB : iblk1 V c 1 t kk = V c main_v46 (((cfg1.win 1).blk t).view.emb kk) := by
      unfold iblk1; rw [View.read_apply]; rfl
    rw [hA, hB]
  · show win1_1.index t (0 : Fin 2) * 1 + 1 * (kk 0).val = 0
    omega
  · show win1_1.index t (1 : Fin 2) * 96 + 1 * (kk 1).val = win1_2.index t (1 : Fin 2) * 96 + 1 * (y 1).val
    omega

/-- An index of the output array lies in point `t`'s block iff each coordinate lies in the block's range on its axis. -/
theorem mem_blk (t : Fin cfg1.N) (i : S50000x96.Idx) :
    i ∈ ((cfg1.win 2).blk t).view.set ↔ ∀ a : Fin 2, win1_2.index t a * S5000x96.size a ≤ (i a).val
      ∧ (i a).val < win1_2.index t a * S5000x96.size a + S5000x96.size a := by
  show i ∈ ((View.whole main_v47).slice (win1_2.rect t)).set ↔ _
  rw [View.set_slice_whole, Rect.mem_set_unit]
  exact Iff.rfl

/-- Every row of the output array is written back by the point whose number is the row's quotient by 5000. -/
theorem cover (i : S50000x96.Idx) :
    ∃ t : Fin cfg1.N, (cfg1.win 2).flush t = true ∧ i ∈ ((cfg1.win 2).blk t).view.set := by
  have hi0 : (i 0).val < 50000 := (i 0).isLt
  have hi1 : (i 1).val < 96 := (i 1).isLt
  have hN : cfg1.N = 10 := N_1
  have hlt : (i 0).val / 5000 < cfg1.N := by rw [hN]; omega
  obtain ⟨e0, e1, e2, e3, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 96 ≤ (i 1).val
      ∧ (i 1).val < win1_2.index ⟨(i 0).val / 5000, hlt⟩ (1 : Fin 2) * 96 + 96
    rw [e5]; omega

/-- After the second launch the output array is max(a + b, 0) of the aggregate `a` and the bias row `b` it read:
    every point writes back its block of that one array, and the ten blocks tile it. -/
theorem region1_value (c : Dev nD) :
    (dat1 V c).arrAt 2 cfg1.N = Cert.GcnSpec.biasRelu (F := Ideal) (V c main_v45) (V c main_v46) :=
  (dat1 V c).arrAt_eq_of_cover 2 _ (fun t _ => flushed_eq V c t) cover

end Cert.KernelIdeal.Region1

end
-- ==== Proof.Region2.lean ====
/-
  The third launch: rows of the hidden features times the second weight matrix, 2000 rows a grid point, 25 points.
  After the launch its output array holds the whole product `dense2` of the two arrays it was entered with.
-/
import proofs.«115687_j9603546874307_1_alg».proof.Proof.Gen.KernelIdeal.Frame
import proofs.«115687_j9603546874307_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem
open Idealize.ShloMosaic.Pipeline (Dat)
open Cert.KernelIdeal Cert.KernelIdeal.Gen

-- the buffer contents the launch is entered with: any
variable (V : (c : Dev nD) → (b : Ref sig .tc) → Buf (Elt Ideal) ((c : Thread nD τ).loc b))

/-! ## The block product at an entry -/

theorem hz : (![0, 0] : Fin 2 → Nat) = fun _ => 0 := funext fun a => by fin_cases a <;> rfl

/-- The left operand of the block product is read at the output's row. -/
theorem lhs_blk_0 (i : S2000x40.Idx) (q : dot_S2000x96_S96x40_S2000x40_1_0_0_1_n_n.contr.Idx) :
    (dot_S2000x96_S96x40_S2000x40_1_0_0_1_n_n.lhsIdx i q 0).val = (i 0).val := by
  unfold DotDims.lhsIdx
  rw [dif_neg (show ¬(0 : Fin S2000x96.rank) ∈ dot_S2000x96_S96x40_S2000x40_1_0_0_1_n_n.lhsBatch by decide), dif_pos (show (0 : Fin S2000x96.rank) ∈ dot_S2000x96_S96x40_S2000x40_1_0_0_1_n_n.lhsNonContracting by decide)]
  rfl
/-- … and at the contraction index along its columns. -/
theorem lhs_blk_1 (i : S2000x40.Idx) (q : dot_S2000x96_S96x40_S2000x40_1_0_0_1_n_n.contr.Idx) :
    (dot_S2000x96_S96x40_S2000x40_1_0_0_1_n_n.lhsIdx i q 1).val = (q ⟨0, by decide⟩).val :=
  dot_S2000x96_S96x40_S2000x40_1_0_0_1_n_n.lhsIdx_val_of_single rfl i q
/-- The right operand is read at the contraction index along its rows … -/
theorem rhs_blk_0 (i : S2000x40.Idx) (q : dot_S2000x96_S96x40_S2000x40_1_0_0_1_n_n.contr.Idx) :
    (dot_S2000x96_S96x40_S2000x40_1_0_0_1_n_n.rhsIdx i q 0).val = (q ⟨0, by decide⟩).val :=
  dot_S2000x96_S96x40_S2000x40_1_0_0_1_n_n.rhsIdx_val_of_single rfl i q
/-- … and at the output's column. -/
theorem rhs_blk_1 (i : S2000x40.Idx) (q : dot_S2000x96_S96x40_S2000x40_1_0_0_1_n_n.contr.Idx) :
    (dot_S2000x96_S96x40_S2000x40_1_0_0_1_n_n.rhsIdx i q 1).val = (i 1).val := by
  unfold DotDims.rhsIdx
  rw [dif_neg (show ¬(1 : Fin S96x40.rank) ∈ dot_S2000x96_S96x40_S2000x40_1_0_0_1_n_n.rhsBatch by decide), dif_pos (show (1 : Fin S96x40.rank) ∈ dot_S2000x96_S96x40_S2000x40_1_0_0_1_n_n.rhsNonContracting by decide)]
  rfl

/-- Entry (p, q) of what the body computes from a block of rows `x0` and the weights `x1`: the sum over the hidden
    axis of `x0[p, k] * x1[k, q]` (the cast of the block's shape to itself and the narrowing to bf16 are the identity on ideal values, the accumulator is zero). -/
theorem blockProduct_apply (x0 : Vec Ideal S2000x96 .f32) (x1 : Vec Ideal S96x40 .f32) (p : Fin 2000) (q : Fin 40) :
    k2_pay1 (F := Ideal) x0 x1 (ValueIdx.ix2 p q) = ∑ k : Fin 96, x0 (ValueIdx.ix2 p k) * x1 (ValueIdx.ix2 k q) := by
  unfold k2_pay1
  rw [shapeCast_self]
  refine (Ideal.matmul_constant_zero_apply dot_S2000x96_S96x40_S2000x40_1_0_0_1_n_n none _ _ (ValueIdx.ix2 p q)).trans ?_
  rw [← Equiv.sum_comp (ValueIdx.contrEquiv1 dot_S2000x96_S96x40_S2000x40_1_0_0_1_n_n 96 rfl rfl).symm]
  refine Finset.sum_congr rfl fun k _ => ?_
  rw [ValueIdx.truncf_apply, ValueIdx.truncf_apply]
  have hk := ValueIdx.contrEquiv1_symm_val dot_S2000x96_S96x40_S2000x40_1_0_0_1_n_n 96 rfl rfl k
  have el : dot_S2000x96_S96x40_S2000x40_1_0_0_1_n_n.lhsIdx (ValueIdx.ix2 p q) ((ValueIdx.contrEquiv1 dot_S2000x96_S96x40_S2000x40_1_0_0_1_n_n 96 rfl rfl).symm k) = ValueIdx.ix2 p k := funext fun a => Fin.ext (by
    match a with
    | ⟨0, _⟩ => exact lhs_blk_0 _ _
    | ⟨1, _⟩ => exact (lhs_blk_1 _ _).trans hk)
  have er : dot_S2000x96_S96x40_S2000x40_1_0_0_1_n_n.rhsIdx (ValueIdx.ix2 p q) ((ValueIdx.contrEquiv1 dot_S2000x96_S96x40_S2000x40_1_0_0_1_n_n 96 rfl rfl).symm k) = ValueIdx.ix2 k q := funext fun a => Fin.ext (by
    match a with
    | ⟨0, _⟩ => exact (rhs_blk_0 _ _).trans hk
    | ⟨1, _⟩ => exact rhs_blk_1 _ _)
  rw [el, er]

/-! ## The whole product at an entry -/

/-- The left operand of the whole product is read at the output's row. -/
theorem lhs_whole_0 (i : Cert.ReferenceIdeal.S50000x40.Idx) (q : Cert.ReferenceIdeal.dot_S50000x96_S96x40_S50000x40_1_0_0_1_n_n.contr.Idx) :
    (Cert.ReferenceIdeal.dot_S50000x96_S96x40_S50000x40_1_0_0_1_n_n.lhsIdx i q 0).val = (i 0).val := by
  unfold DotDims.lhsIdx
  rw [dif_neg (show ¬(0 : Fin Cert.ReferenceIdeal.S50000x96.rank) ∈ Cert.ReferenceIdeal.dot_S50000x96_S96x40_S50000x40_1_0_0_1_n_n.lhsBatch by decide), dif_pos (show (0 : Fin Cert.ReferenceIdeal.S50000x96.rank) ∈ Cert.ReferenceIdeal.dot_S50000x96_S96x40_S50000x40_1_0_0_1_n_n.lhsNonContracting by decide)]
  rfl
/-- … and at the contraction index along its columns. -/
theorem lhs_whole_1 (i : Cert.ReferenceIdeal.S50000x40.Idx) (q : Cert.ReferenceIdeal.dot_S50000x96_S96x40_S50000x40_1_0_0_1_n_n.contr.Idx) :
    (Cert.ReferenceIdeal.dot_S50000x96_S96x40_S50000x40_1_0_0_1_n_n.lhsIdx i q 1).val = (q ⟨0, by decide⟩).val :=
  Cert.ReferenceIdeal.dot_S50000x96_S96x40_S50000x40_1_0_0_1_n_n.lhsIdx_val_of_single rfl i q
/-- The right operand is read at the contraction index along its rows … -/
theorem rhs_whole_0 (i : Cert.ReferenceIdeal.S50000x40.Idx) (q : Cert.ReferenceIdeal.dot_S50000x96_S96x40_S50000x40_1_0_0_1_n_n.contr.Idx) :
    (Cert.ReferenceIdeal.dot_S50000x96_S96x40_S50000x40_1_0_0_1_n_n.rhsIdx i q 0).val = (q ⟨0, by decide⟩).val :=
  Cert.ReferenceIdeal.dot_S50000x96_S96x40_S50000x40_1_0_0_1_n_n.rhsIdx_val_of_single rfl i q
/-- … and at the output's column. -/
theorem rhs_whole_1 (i : Cert.ReferenceIdeal.S50000x40.Idx) (q : Cert.ReferenceIdeal.dot_S50000x96_S96x40_S50000x40_1_0_0_1_n_n.contr.Idx) :
    (Cert.ReferenceIdeal.dot_S50000x96_S96x40_S50000x40_1_0_0_1_n_n.rhsIdx i q 1).val = (i 1).val := by
  unfold DotDims.rhsIdx
  rw [dif_neg (show ¬(1 : Fin Cert.ReferenceIdeal.S96x40.rank) ∈ Cert.ReferenceIdeal.dot_S50000x96_S96x40_S50000x40_1_0_0_1_n_n.rhsBatch by decide), dif_pos (show (1 : Fin Cert.ReferenceIdeal.S96x40.rank) ∈ Cert.ReferenceIdeal.dot_S50000x96_S96x40_S50000x40_1_0_0_1_n_n.rhsNonContracting by decide)]
  rfl

/-- Entry (r, q) of the whole product: the sum over the hidden axis of `x[r, k] * w[k, q]`. -/
theorem dense2_apply (x : (⟨Cert.ReferenceIdeal.S50000x96, .f32⟩ : BufTy).Contents (Elt Ideal)) (w : (⟨Cert.ReferenceIdeal.S96x40, .f32⟩ : BufTy).Contents (Elt Ideal))
    (r : Fin 50000) (q : Fin 40) :
    Cert.GcnSpec.dense2 (F := Ideal) x w (ValueIdx.ix2 r q) = ∑ k : Fin 96, x (ValueIdx.ix2 r k) * w (ValueIdx.ix2 k q) := by
  unfold Cert.GcnSpec.dense2
  simp only [Host.dotGeneral]
  rw [Ideal.dotGeneral_apply, ← Equiv.sum_comp (ValueIdx.contrEquiv1 Cert.ReferenceIdeal.dot_S50000x96_S96x40_S50000x40_1_0_0_1_n_n 96 rfl rfl).symm]
  refine Finset.sum_congr rfl fun k _ => ?_
  have hk := ValueIdx.contrEquiv1_symm_val Cert.ReferenceIdeal.dot_S50000x96_S96x40_S50000x40_1_0_0_1_n_n 96 rfl rfl k
  have el : Cert.ReferenceIdeal.dot_S50000x96_S96x40_S50000x40_1_0_0_1_n_n.lhsIdx (ValueIdx.ix2 r q) ((ValueIdx.contrEquiv1 Cert.ReferenceIdeal.dot_S50000x96_S96x40_S50000x40_1_0_0_1_n_n 96 rfl rfl).symm k) = ValueIdx.ix2 r k := funext fun a => Fin.ext (by
    match a with
    | ⟨0, _⟩ => exact lhs_whole_0 _ _
    | ⟨1, _⟩ => exact (lhs_whole_1 _ _).trans hk)
  have er : Cert.ReferenceIdeal.dot_S50000x96_S96x40_S50000x40_1_0_0_1_n_n.rhsIdx (ValueIdx.ix2 r q) ((ValueIdx.contrEquiv1 Cert.ReferenceIdeal.dot_S50000x96_S96x40_S50000x40_1_0_0_1_n_n 96 rfl rfl).symm k) = ValueIdx.ix2 k q := funext fun a => Fin.ext (by
    match a with
    | ⟨0, _⟩ => exact (rhs_whole_0 _ _).trans hk
    | ⟨1, _⟩ => exact rhs_whole_1 _ _)
  rw [el, er]

/-! ## From the blocks to the array -/

/-- The index maps over the grid: the row blocks of the hidden features and of the output move with the point, the
    weight matrix is one block that sits still. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of point `t`'s block of the hidden features is entry (2000 t + p, k) of the array. -/
theorem rows_read (c : Dev nD) (t : Fin cfg2.N) (p : Fin 2000) (k : Fin 96) (r : Fin 50000) (hr : r.val = t.val * 2000 + p.val) :
    (iblk2 V c 0 t : Vec Ideal S2000x96 .f32) (ValueIdx.ix2 p k) = (V c main_v47 : S50000x96.Idx → Elt Ideal .f32) (ValueIdx.ix2 r k) := by
  obtain ⟨e0, e1, -⟩ := idx_facts t
  unfold iblk2
  rw [View.read_apply]
  show V c main_v47 (((cfg2.win 0).blk t).view.emb (ValueIdx.ix2 p k)) = V c main_v47 (ValueIdx.ix2 r k)
  congr 1
  funext a; apply Fin.ext
  match a with
  | ⟨0, _⟩ => show win2_0.index t (0 : Fin 2) * 2000 + 1 * p.val = r.val; omega
  | ⟨1, _⟩ => show win2_0.index t (1 : Fin 2) * 96 + 1 * k.val = k.val; omega

/-- Every point's block of the weight matrix is the matrix. -/
theorem weights_read (c : Dev nD) (t : Fin cfg2.N) (k : Fin 96) (q : Fin 40) :
    (iblk2 V c 1 t : Vec Ideal S96x40 .f32) (ValueIdx.ix2 k q) = (V c main_arg4 : S96x40.Idx → Elt Ideal .f32) (ValueIdx.ix2 k q) := by
  obtain ⟨-, -, e2, e3, -⟩ := idx_facts t
  unfold iblk2
  rw [View.read_apply]
  show V c main_arg4 (((cfg2.win 1).blk t).view.emb (ValueIdx.ix2 k q)) = V c main_arg4 (ValueIdx.ix2 k q)
  congr 1
  funext a; apply Fin.ext
  match a with
  | ⟨0, _⟩ => show win2_1.index t (0 : Fin 2) * 96 + 1 * k.val = k.val; omega
  | ⟨1, _⟩ => show win2_1.index t (1 : Fin 2) * 40 + 1 * q.val = q.val; omega

/-- Entry (p, q) of point `t`'s output block sits at (2000 t + p, q) of the output array. -/
theorem out_emb (t : Fin cfg2.N) (p : Fin 2000) (q : Fin 40) (r : Fin 50000) (hr : r.val = t.val * 2000 + p.val) :
    ((cfg2.win 2).blk t).view.emb (ValueIdx.ix2 p q) = (ValueIdx.ix2 r q : S50000x40.Idx) := by
  obtain ⟨-, -, -, -, e4, e5⟩ := idx_facts t
  funext a; apply Fin.ext
  match a with
  | ⟨0, _⟩ => show win2_2.index t (0 : Fin 2) * 2000 + 1 * p.val = r.val; omega
  | ⟨1, _⟩ => show win2_2.index t (1 : Fin 2) * 40 + 1 * q.val = q.val; omega

/-- What point `t` writes back is block `t` of the whole product. -/
theorem flushed_eq (c : Dev nD) (t : Fin cfg2.N) :
    (dat2 V c).flushed 2 t = ((cfg2.win 2).blk t).view.read (Elt Ideal) (Cert.GcnSpec.dense2 (F := Ideal) (V c main_v47) (V c main_arg4)) := by
  show (cfg2.win 2).cut (grid2.coords t) ((dat2 V c).after 2 t) = _
  rw [after2_2]
  unfold out2_2
  rw [View.canon_unit_zero hz]
  simp only [View.ld_unit_zero (S := S2000x96) hz, View.ld_unit_zero (S := S96x40) hz]
  funext y
  obtain ⟨p, q, rfl⟩ : ∃ (p : Fin 2000) (q : Fin 40), y = ValueIdx.ix2 p q := ⟨y 0, y 1, ValueIdx.eq_ix2 y⟩
  have ht : t.val < 25 := lt_of_lt_of_eq t.isLt N_2
  have hp : p.val < 2000 := p.isLt
  show k2_pay1 (F := Ideal) (iblk2 V c 0 t) (iblk2 V c 1 t) (ValueIdx.ix2 p q)
    = Cert.GcnSpec.dense2 (F := Ideal) (V c main_v47) (V c main_arg4) (((cfg2.win 2).blk t).view.emb (ValueIdx.ix2 p q))
  rw [out_emb t p q ⟨t.val * 2000 + p.val, by omega⟩ rfl, blockProduct_apply, dense2_apply]
  refine Finset.sum_congr rfl fun k _ => ?_
  rw [rows_read V c t p k ⟨t.val * 2000 + p.val, by omega⟩ rfl, weights_read V c t k q]

/-- An entry of the output array is in point `t`'s block iff each coordinate is in the block's range on its axis. -/
theorem mem_blk (t : Fin cfg2.N) (i : S50000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v48).slice (win2_2.rect t)).set ↔ _
  rw [View.set_slice_whole, Rect.mem_set_unit]
  exact Iff.rfl

/-- Every entry of the output array is written back by some point: row `r` by point `r / 2000`. -/
theorem cover (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  have hlt : (i 0).val / 2000 < cfg2.N := lt_of_lt_of_eq (show (i 0).val / 2000 < 25 by omega) N_2.symm
  obtain ⟨-, -, -, -, e4, e5⟩ := idx_facts ⟨(i 0).val / 2000, hlt⟩
  have e4' : win2_2.index ⟨(i 0).val / 2000, hlt⟩ (0 : Fin 2) = (i 0).val / 2000 := e4
  refine ⟨⟨(i 0).val / 2000, hlt⟩, flush2_2 _, ?_⟩
  rw [mem_blk]
  intro a
  match a with
  | ⟨0, _⟩ => show win2_2.index ⟨(i 0).val / 2000, hlt⟩ (0 : Fin 2) * 2000 ≤ (i 0).val ∧ (i 0).val < win2_2.index ⟨(i 0).val / 2000, hlt⟩ (0 : Fin 2) * 2000 + 2000; omega
  | ⟨1, _⟩ => show win2_2.index ⟨(i 0).val / 2000, hlt⟩ (1 : Fin 2) * 40 ≤ (i 1).val ∧ (i 1).val < win2_2.index ⟨(i 0).val / 2000, hlt⟩ (1 : Fin 2) * 40 + 40; omega

/-- After the third launch the output array is the whole product of the hidden features and the weights it read. -/
theorem region2_value (c : Dev nD) :
    (dat2 V c).arrAt 2 cfg2.N = Cert.GcnSpec.dense2 (F := Ideal) (V c main_v47) (V c main_arg4) :=
  (dat2 V c).arrAt_eq_of_cover 2 (Cert.GcnSpec.dense2 (F := Ideal) (V c main_v47) (V c main_arg4)) (fun t _ => flushed_eq V c t) cover

end Cert.KernelIdeal.Region2

end
-- ==== Proof.Region3.lean ====
/-
  The fourth launch: bias, then the row-wise log-softmax, 5000 rows a grid point, 10 points, two output arrays.
  After the launch the first holds the logits `biasAdd` and the second their `logSoftmax`.
-/
import proofs.«115687_j9603546874307_1_alg».proof.Proof.Gen.KernelIdeal.Frame
import proofs.«115687_j9603546874307_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.SL.Sem
open Idealize.ShloMosaic.Pipeline (Dat)
open Cert.KernelIdeal Cert.KernelIdeal.Gen
open Idealize.ShloMosaic.ValueIdx

-- the buffer contents the launch is entered with: any
variable (V : (c : Dev nD) → (b : Ref sig .tc) → Buf (Elt Ideal) ((c : Thread nD τ).loc b))

/-! ## One row's log-softmax, and the body's payloads on a block read at an entry -/
/-- The zero offsets, however they are spelt. -/
theorem hz : (![0, 0] : Fin 2 → Nat) = fun _ => 0 := funext fun a => by fin_cases a <;> rfl

/-- A row's greatest entry, taken from the word for minus infinity. -/
def rowTop (f : Fin 40 → EReal) : EReal :=
  (Finset.univ : Finset (Fin 40)).fold max (Ideal.ofBits .f32 0xFF800000#32) f

/-- One row's log-softmax at lane q. -/
def rowLogSoftmax (f : Fin 40 → EReal) (q : Fin 40) : EReal :=
  (f q - rowTop f) - Ideal.log (∑ k : Fin 40, Ideal.exp (f k - rowTop f))

/-- The logits' payload on a block, entry by entry: the block's entry plus the bias row's entry in that lane. -/
theorem logits_block_apply (x0 : Vec Ideal S5000x40 .f32) (x1 : Vec Ideal S1x40 .f32) (p : Fin 5000) (q : Fin 40) :
    (k3_pay1 x0 x1 : FVec Ideal S5000x40 .f32) (ix2 p q) = x0 (ix2 p q) + x1 (ix2 (0 : Fin 1) q) := by
  unfold k3_pay1
  rw [shapeCast_self, shapeCast_self]
  show (x0 (ix2 p q) : EReal) + broadcastTo S5000x40 x1 broadcasts_S1x40_S5000x40 (ix2 p q) = _
  rw [broadcastTo_1b_ab_apply]

/-- A block's row maximum. -/
theorem rowmax_block (src : FVec Ideal S5000x40 .f32) (p : Fin 5000) (hφ : FKind.Formats .f32)
    (hacc : (0xFF800000#32 : BitVec 32) = 0xFF800000#32) :
    multiReduction (F := Ideal) .maximumf [1] S5000 src 0xFF800000#32 reduces_S5000x40_S5000 hφ hacc (ix1 p)
      = rowTop (fun k => src (ix2 p k)) := by
  refine (Ideal.multiReduction_maximumf_single src 0xFF800000#32 reduces_S5000x40_S5000 hφ hacc (ix1 p)).trans ?_
  unfold rowTop
  refine congrArg (Finset.fold max _ · Finset.univ) (funext fun k => ?_)
  exact congrArg src (funext fun a => Fin.ext (by match a with | ⟨0, _⟩ => rfl | ⟨1, _⟩ => rfl))

/-- A block's row sum. -/
theorem rowsum_block (src : FVec Ideal S5000x40 .f32) (p : Fin 5000) (hφ : FKind.Formats .f32)
    (hacc : (0x00000000#32 : BitVec 32) = 0x00000000#32) :
    multiReduction (F := Ideal) .add [1] S5000 src 0x00000000#32 reduces_S5000x40_S5000 hφ hacc (ix1 p)
      = ∑ k : Fin 40, src (ix2 p k) := by
  refine (Ideal.multiReduction_add_single src 0x00000000#32 reduces_S5000x40_S5000 hφ hacc (ix1 p)).trans ?_
  refine Finset.sum_congr rfl fun k _ => ?_
  exact congrArg src (funext fun a => Fin.ext (by match a with | ⟨0, _⟩ => rfl | ⟨1, _⟩ => rfl))

/-- A column [5000] viewed as [5000, 1] reads its row's entry. -/
theorem column_cast_apply {α : Type} (v : S5000.Idx → α) (p : Fin 5000) (u : Fin 1) :
    shapeCast S5000x1 v shapeCasts_S5000_S5000x1 (ix2 p u) = v (ix1 p) :=
  shapeCast_apply v shapeCasts_S5000_S5000x1 _ _ (by
    have hu : u.val = 0 := by omega
    rw [Shape.rowMajor_val_one, Shape.rowMajor_val_two]
    show p.val = p.val * 1 + u.val
    omega)

/-- A column [5000, 1] repeated along the lanes reads its row's entry. -/
theorem column_spread_apply {α : Type} (w : S5000x1.Idx → α) (p : Fin 5000) (q : Fin 40) :
    broadcastTo S5000x40 w broadcasts_S5000x1_S5000x40 (ix2 p q) = w (ix2 p (0 : Fin 1)) := by
  refine broadcastTo_apply w broadcasts_S5000x1_S5000x40 (ix2 p q) (ix2 p (0 : Fin 1)) fun ax => ?_
  match ax with
  | ⟨0, _⟩ =>
    show p.val = if (5000 : Nat) = 1 then 0 else p.val
    rw [if_neg (by decide)]
  | ⟨1, _⟩ =>
    show 0 = if (1 : Nat) = 1 then 0 else q.val
    rw [if_pos rfl]

/-- The exponential and the logarithm of a vector read entry by entry. -/
theorem exp_at {s : Shape} (x : FVec Ideal s .f32) (i : s.Idx) : exp x i = Ideal.exp (x i) := rfl
theorem log_at {s : Shape} (x : FVec Ideal s .f32) (i : s.Idx) : log x i = Ideal.log (x i) := rfl

/-- The log-probabilities' payload on a block, entry by entry: the log-softmax of the entry's row of block logits. -/
theorem logprob_block_apply (x0 : Vec Ideal S5000x40 .f32) (x1 : Vec Ideal S1x40 .f32) (p : Fin 5000) (q : Fin 40) :
    (k3_pay2 x0 x1 : FVec Ideal S5000x40 .f32) (ix2 p q)
      = rowLogSoftmax (fun k => x0 (ix2 p k) + x1 (ix2 (0 : Fin 1) k)) q := by
  unfold k3_pay2
  simp only [subf_apply, log_at, column_spread_apply, column_cast_apply]
  rw [rowmax_block, rowsum_block]
  simp only [exp_at, subf_apply, column_spread_apply, column_cast_apply]
  rw [rowmax_block]
  simp only [logits_block_apply]
  rfl

/-! ## The specification's host operations read at an index -/

/-- The host's exponential and logarithm read entry by entry. -/
theorem hostExp_at {s : Shape} (x : FVec Ideal s .f32) (i : s.Idx) : Host.exp x i = Ideal.exp (x i) := rfl
theorem hostLog_at {s : Shape} (x : FVec Ideal s .f32) (i : s.Idx) : Host.log x i = Ideal.log (x i) := rfl

/-- A column [50000] viewed as [50000, 1] reads its row's entry. -/
theorem array_column_apply {α : Type} (v : Cert.ReferenceIdeal.S50000.Idx → α) (r : Fin 50000) (u : Fin 1) :
    broadcastInDim Cert.ReferenceIdeal.S50000x1 ![0] Cert.ReferenceIdeal.Gen.bcast_S50000_S50000x1_0 v (ix2 r u) = v (ix1 r) :=
  broadcastInDim_apply _ _ v (ix2 r u) (ix1 r) (fun a => match a with
    | ⟨0, _⟩ => by show r.val = if (50000 : Nat) = 1 then 0 else r.val; rw [if_neg (by decide)])

/-- A column [50000, 1] repeated along the lanes reads its row's entry. -/
theorem array_spread_apply {α : Type} (w : Cert.ReferenceIdeal.S50000x1.Idx → α) (r : Fin 50000) (q : Fin 40) :
    broadcastInDim Cert.ReferenceIdeal.S50000x40 ![0, 1] Cert.ReferenceIdeal.Gen.bcast_S50000x1_S50000x40_0_1 w (ix2 r q)
      = w (ix2 r (0 : Fin 1)) :=
  broadcastInDim_apply _ _ w (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-- The logits at an index: the aggregate's entry plus the bias row's entry in that lane. -/
theorem biasAdd_apply (a : Cert.ReferenceIdeal.S50000x40.Idx → EReal) (b : Cert.ReferenceIdeal.S1x40.Idx → EReal)
    (r : Fin 50000) (q : Fin 40) :
    Cert.GcnSpec.biasAdd (F := Ideal) a b (ix2 r q) = a (ix2 r q) + b (ix2 (0 : Fin 1) q) := by
  unfold Cert.GcnSpec.biasAdd
  refine congrArg (a (ix2 r q) + ·) ?_
  exact broadcastInDim_apply _ _ b (ix2 r q) (ix2 (0 : Fin 1) q) (fun ax => match ax with
    | ⟨0, _⟩ => by show 0 = if (1 : Nat) = 1 then 0 else r.val; rw [if_pos rfl]
    | ⟨1, _⟩ => by show q.val = if (40 : Nat) = 1 then 0 else q.val; rw [if_neg (by decide)])

/-- The specification's row maximum is the row's greatest entry: the second maximum against minus infinity changes nothing. -/
theorem rowMax_apply (y : Cert.ReferenceIdeal.S50000x40.Idx → EReal) (r : Fin 50000) :
    Cert.GcnSpec.rowMax (F := Ideal) y (ix1 r) = rowTop (fun k => y (ix2 r k)) := by
  unfold Cert.GcnSpec.rowMax
  rw [maximumf_apply]
  rw [Host.reduce_eq_fold_single (FloatOps.maximumf (F := Ideal) (φ := .f32)) y _ _ (by decide) _ (ix1 r)]
  show max (Ideal.ofBits .f32 0xFF800000#32) (Finset.fold max (Ideal.ofBits .f32 0xFF800000#32) _ Finset.univ) = _
  rw [max_eq_right ((Finset.le_fold_max _).mpr (Or.inl le_rfl))]
  unfold rowTop
  refine congrArg (Finset.fold max _ · Finset.univ) (funext fun k => ?_)
  exact congrArg y (funext fun a => Fin.ext (by match a with | ⟨0, _⟩ => rfl | ⟨1, _⟩ => rfl))

/-- The shifted logits at an index. -/
theorem shifted_apply (y : Cert.ReferenceIdeal.S50000x40.Idx → EReal) (r : Fin 50000) (q : Fin 40) :
    Cert.GcnSpec.shifted (F := Ideal) y (ix2 r q) = y (ix2 r q) - rowTop (fun k => y (ix2 r k)) := by
  unfold Cert.GcnSpec.shifted
  rw [subf_apply, array_spread_apply, array_column_apply, rowMax_apply]

/-- The logarithm of a row's sum of exponentials. -/
theorem logSumExp_apply (y : Cert.ReferenceIdeal.S50000x40.Idx → EReal) (r : Fin 50000) (u : Fin 1) :
    Cert.GcnSpec.logSumExp (F := Ideal) y (ix2 r u)
      = Ideal.log (∑ k : Fin 40, Ideal.exp (y (ix2 r k) - rowTop (fun k => y (ix2 r k)))) := by
  unfold Cert.GcnSpec.logSumExp
  rw [hostLog_at, array_column_apply]
  simp only [Host.reduceAdd, Ideal.hostReduceAdd_def]
  rw [Ideal.hostReduceAdd_single _ (by decide)]
  refine congrArg Ideal.log ?_
  rw [constant_apply, Ideal.ofBits_zero_f32, zero_add]
  refine Finset.sum_congr rfl fun k _ => ?_
  rw [hostExp_at]
  refine congrArg Ideal.exp ?_
  exact (congrArg (Cert.GcnSpec.shifted (F := Ideal) y)
    (funext fun a => Fin.ext (by match a with | ⟨0, _⟩ => rfl | ⟨1, _⟩ => rfl))).trans (shifted_apply y r k)

/-- The specification's log-softmax at an index is its row's log-softmax at the lane. -/
theorem logSoftmax_apply (y : Cert.ReferenceIdeal.S50000x40.Idx → EReal) (r : Fin 50000) (q : Fin 40) :
    Cert.GcnSpec.logSoftmax (F := Ideal) y (ix2 r q) = rowLogSoftmax (fun k => y (ix2 r k)) q := by
  unfold Cert.GcnSpec.logSoftmax
  rw [subf_apply, array_spread_apply, shifted_apply, logSumExp_apply]
  rfl

/-! ## From blocks to the arrays -/

/-- The launch's index maps over its ten grid points: the aggregate's block and both outputs' blocks are block `t` of
    their arrays' rows, all 40 lanes; the bias row is fetched whole at every point. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row p of block t is a row of the array. -/
theorem row_lt (t : Fin cfg3.N) (p : Fin 5000) : 5000 * t.val + p.val < 50000 := by
  have hN : cfg3.N = 10 := N_3
  have ht := t.isLt
  omega

/-- The aggregate's block at point t: row p of the block is row 5000 t + p of the array. -/
theorem rows_read (c : Dev nD) (t : Fin cfg3.N) (p : Fin 5000) (q : Fin 40) :
    (iblk3 V c 0 t : Vec Ideal S5000x40 .f32) (ix2 p q)
      = (V c main_v61 : S50000x40.Idx → EReal) (ix2 ⟨5000 * t.val + p.val, row_lt t p⟩ q) := by
  obtain ⟨e0, e1, -⟩ := block_index t
  unfold iblk3
  rw [View.read_apply]
  refine congrArg (V c main_v61) (funext fun a => Fin.ext ?_)
  match a with
  | ⟨0, _⟩ => show win3_0.index t (0 : Fin 2) * 5000 + 1 * p.val = 5000 * t.val + p.val; omega
  | ⟨1, _⟩ => show win3_0.index t (1 : Fin 2) * 40 + 1 * q.val = q.val; omega

/-- The bias row's block at every point is the bias row. -/
theorem bias_read (c : Dev nD) (t : Fin cfg3.N) (u : Fin 1) (q : Fin 40) :
    (iblk3 V c 1 t : Vec Ideal S1x40 .f32) (ix2 u q) = (V c main_v62 : S1x40.Idx → EReal) (ix2 u q) := by
  obtain ⟨-, -, e2, e3, -⟩ := block_index t
  unfold iblk3
  rw [View.read_apply]
  refine congrArg (V c main_v62) (funext fun a => Fin.ext ?_)
  match a with
  | ⟨0, _⟩ => show win3_1.index t (0 : Fin 2) * 1 + 1 * u.val = u.val; omega
  | ⟨1, _⟩ => show win3_1.index t (1 : Fin 2) * 40 + 1 * q.val = q.val; omega

/-- Where entry (p, q) of point t's block of the logits sits in the array: row 5000 t + p, lane q. -/
theorem logits_emb (t : Fin cfg3.N) (p : Fin 5000) (q : Fin 40) :
    ((cfg3.win 2).blk t).view.emb (ix2 p q) = (ix2 ⟨5000 * t.val + p.val, row_lt t p⟩ q : S50000x40.Idx) := by
  obtain ⟨-, -, -, -, e4, e5, -⟩ := block_index t
  refine funext fun a => Fin.ext ?_
  match a with
  | ⟨0, _⟩ => show win3_2.index t (0 : Fin 2) * 5000 + 1 * p.val = 5000 * t.val + p.val; omega
  | ⟨1, _⟩ => show win3_2.index t (1 : Fin 2) * 40 + 1 * q.val = q.val; omega

/-- The same for the log-probabilities' array. -/
theorem logprob_emb (t : Fin cfg3.N) (p : Fin 5000) (q : Fin 40) :
    ((cfg3.win 3).blk t).view.emb (ix2 p q) = (ix2 ⟨5000 * t.val + p.val, row_lt t p⟩ q : S50000x40.Idx) := by
  obtain ⟨-, -, -, -, -, -, e6, e7⟩ := block_index t
  refine funext fun a => Fin.ext ?_
  match a with
  | ⟨0, _⟩ => show win3_3.index t (0 : Fin 2) * 5000 + 1 * p.val = 5000 * t.val + p.val; omega
  | ⟨1, _⟩ => show win3_3.index t (1 : Fin 2) * 40 + 1 * q.val = q.val; omega

/-- What grid point `t` writes back to the logits is block `t` of the specification's whole array. -/
theorem flushed_logits (c : Dev nD) (t : Fin cfg3.N) :
    (dat3 V c).flushed 2 t
      = ((cfg3.win 2).blk t).view.read (Elt Ideal) (Cert.GcnSpec.biasAdd (F := Ideal) (V c main_v61) (V c main_v62)) := by
  show (cfg3.win 2).cut (grid3.coords t) ((dat3 V c).after 2 t) = _
  rw [after3_2]
  unfold out3_2
  rw [View.canon_unit_zero hz]
  simp only [View.ld_unit_zero (S := S5000x40) hz, View.ld_unit_zero (S := S1x40) hz]
  refine funext fun (y : S5000x40.Idx) => ?_
  obtain ⟨p, q, rfl⟩ : ∃ (p : Fin 5000) (q : Fin 40), y = ix2 p q := ⟨y 0, y 1, eq_ix2 y⟩
  rw [View.read_apply, logits_emb]
  refine (logits_block_apply (iblk3 V c 0 t) (iblk3 V c 1 t) p q).trans ?_
  rw [rows_read V c t p q, bias_read V c t 0 q]
  exact (biasAdd_apply (V c main_v61) (V c main_v62) ⟨5000 * t.val + p.val, row_lt t p⟩ q).symm

/-- What grid point `t` writes back to the log-probabilities is block `t` of the specification's whole array: a row's
    maximum and its sum of exponentials read the row only, and row p of the block is row 5000 t + p of the logits. -/
theorem flushed_logprob (c : Dev nD) (t : Fin cfg3.N) :
    (dat3 V c).flushed 3 t
      = ((cfg3.win 3).blk t).view.read (Elt Ideal)
          (Cert.GcnSpec.logSoftmax (F := Ideal) (Cert.GcnSpec.biasAdd (F := Ideal) (V c main_v61) (V c main_v62))) := by
  show (cfg3.win 3).cut (grid3.coords t) ((dat3 V c).after 3 t) = _
  rw [after3_3]
  unfold out3_3
  rw [View.canon_unit_zero hz]
  simp only [View.ld_unit_zero (S := S5000x40) hz, View.ld_unit_zero (S := S1x40) hz]
  refine funext fun (y : S5000x40.Idx) => ?_
  obtain ⟨p, q, rfl⟩ : ∃ (p : Fin 5000) (q : Fin 40), y = ix2 p q := ⟨y 0, y 1, eq_ix2 y⟩
  rw [View.read_apply, logprob_emb]
  refine (logprob_block_apply (iblk3 V c 0 t) (iblk3 V c 1 t) p q).trans ?_
  refine Eq.trans ?_ (logSoftmax_apply _ ⟨5000 * t.val + p.val, row_lt t p⟩ q).symm
  refine congrArg (rowLogSoftmax · q) (funext fun k => ?_)
  rw [rows_read V c t p k, bias_read V c t 0 k]
  exact (biasAdd_apply (V c main_v61) (V c main_v62) ⟨5000 * t.val + p.val, row_lt t p⟩ k).symm

/-- An index of the logits' array lies in point `t`'s block iff each coordinate lies in the block's range on its axis. -/
theorem mem_logits_blk (t : Fin cfg3.N) (i : S50000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v63_0).slice (win3_2.rect t)).set ↔ _
  rw [View.set_slice_whole, Rect.mem_set_unit]
  exact Iff.rfl

/-- The same for the log-probabilities' array. -/
theorem mem_logprob_blk (t : Fin cfg3.N) (i : S50000x40.Idx) :
    i ∈ ((cfg3.win 3).blk t).view.set ↔ ∀ a : Fin 2, win3_3.index t a * S5000x40.size a ≤ (i a).val
      ∧ (i a).val < win3_3.index t a * S5000x40.size a + S5000x40.size a := by
  show i ∈ ((View.whole main_v63_1).slice (win3_3.rect t)).set ↔ _
  rw [View.set_slice_whole, Rect.mem_set_unit]
  exact Iff.rfl

/-- Every row of the logits' array is written back by the point whose number is the row's quotient by 5000. -/
theorem cover_logits (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 10 := N_3
  have hlt : (i 0).val / 5000 < cfg3.N := by rw [hN]; omega
  obtain ⟨-, -, -, -, e4, e5, -⟩ := block_index ⟨(i 0).val / 5000, hlt⟩
  refine ⟨⟨(i 0).val / 5000, hlt⟩, flush3_2 _, ?_⟩
  rw [mem_logits_blk]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hlt⟩ (1 : Fin 2) * 40 ≤ (i 1).val
      ∧ (i 1).val < win3_2.index ⟨(i 0).val / 5000, hlt⟩ (1 : Fin 2) * 40 + 40
    rw [e5]; omega

/-- The same for the log-probabilities' array. -/
theorem cover_logprob (i : S50000x40.Idx) :
    ∃ t : Fin cfg3.N, (cfg3.win 3).flush t = true ∧ i ∈ ((cfg3.win 3).blk t).view.set := by
  have hi0 : (i 0).val < 50000 := (i 0).isLt
  have hi1 : (i 1).val < 40 := (i 1).isLt
  have hN : cfg3.N = 10 := N_3
  have hlt : (i 0).val / 5000 < cfg3.N := by rw [hN]; omega
  obtain ⟨-, -, -, -, -, -, e6, e7⟩ := block_index ⟨(i 0).val / 5000, hlt⟩
  refine ⟨⟨(i 0).val / 5000, hlt⟩, flush3_3 _, ?_⟩
  rw [mem_logprob_blk]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win3_3.index ⟨(i 0).val / 5000, hlt⟩ (1 : Fin 2) * 40 ≤ (i 1).val
      ∧ (i 1).val < win3_3.index ⟨(i 0).val / 5000, hlt⟩ (1 : Fin 2) * 40 + 40
    rw [e7]; omega

/-- After the fourth launch the first output array is the logits a + b of the aggregate `a` and the bias row `b`. -/
theorem region3_logits (c : Dev nD) :
    (dat3 V c).arrAt 2 cfg3.N = Cert.GcnSpec.biasAdd (F := Ideal) (V c main_v61) (V c main_v62) :=
  (dat3 V c).arrAt_eq_of_cover 2 _ (fun t _ => flushed_logits V c t) cover_logits

/-- After the fourth launch the second output array is the row-wise log-softmax of those logits. -/
theorem region3_logprob (c : Dev nD) :
    (dat3 V c).arrAt 3 cfg3.N
      = Cert.GcnSpec.logSoftmax (F := Ideal) (Cert.GcnSpec.biasAdd (F := Ideal) (V c main_v61) (V c main_v62)) :=
  (dat3 V c).arrAt_eq_of_cover 3 _ (fun t _ => flushed_logprob V c t) cover_logprob

end Cert.KernelIdeal.Region3

end
-- ==== Proof.FoldValue.lean ====
/-
  The kernel program's two results as closed forms of its six arguments.

  The contents of the buffers at the ten boundaries of @main (the launch, after each of the five host stretches, after each
  of the four launches) are walked once: a host stretch's buffer is its function of the contents before the stretch, a
  launch's output array is the whole-array value of that launch, every other buffer is what it was. Carried along are
  the three things every later step reads of the graph: the source indices, the destination indices and the edge
  normalisation, all functions of the edge list alone. At the end the first result is
      logits = ((relu((X·W1 aggregated) + b1))·W2 aggregated) + b2
  and the second its row-wise log-softmax (`logitsOf`, `logprobsOf`, stated with the other closed forms).
-/
import proofs.«115687_j9603546874307_1_alg».proof.Proof.Gen.KernelIdeal.Frame
import proofs.«115687_j9603546874307_1_alg».proof.Proof.Spec
import proofs.«115687_j9603546874307_1_alg».proof.Proof.FoldHost
import proofs.«115687_j9603546874307_1_alg».proof.Proof.Forms
import proofs.«115687_j9603546874307_1_alg».proof.Proof.Region0
import proofs.«115687_j9603546874307_1_alg».proof.Proof.Region1
import proofs.«115687_j9603546874307_1_alg».proof.Proof.Region2
import proofs.«115687_j9603546874307_1_alg».proof.Proof.Region3

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.GcnSpec

/-! ## Before the first launch (at any float family) -/

section Early
variable {F : FTy → Type} [FloatOps F]
variable (m : (ℓ : Loc nD τ sig) → Buf (Elt F) ℓ) (ρ : Dev nD → PrngReg)

theorem w3_src (c : Dev nD) : W3 m ρ c (Proc.devRef .tc main_v3) = srcOf (m ((c.tc : Thread nD τ).loc main_arg1)) :=
  (s02_src (W2 m ρ c)).trans ((s01_src (W1 m ρ c)).trans (s0_src (W0 m ρ c)))
theorem w3_dst (c : Dev nD) : W3 m ρ c (Proc.devRef .tc main_v6) = dstOf (m ((c.tc : Thread nD τ).loc main_arg1)) :=
  (s02_dst (W2 m ρ c)).trans ((s01_dst (W1 m ρ c)).trans (s0_dst (W0 m ρ c)))
theorem w2_dinv (c : Dev nD) : W2 m ρ c (Proc.devRef .tc main_v16) = dinvOf (dstOf (m ((c.tc : Thread nD τ).loc main_arg1))) :=
  (s01_dinv (W1 m ρ c)).trans (whereOf_congr (s0_pos (W0 m ρ c)) (s0_rsq (W0 m ρ c)) (s0_zero (W0 m ρ c)))
theorem w3_norm (c : Dev nD) : W3 m ρ c (Proc.devRef .tc main_v31) = edgeNorm (m ((c.tc : Thread nD τ).loc main_arg1)) :=
  (s02_norm (W2 m ρ c)).trans (normOf_congr ((s01_src (W1 m ρ c)).trans (s0_src (W0 m ρ c)))
    ((s01_dst (W1 m ρ c)).trans (s0_dst (W0 m ρ c))) (w2_dinv m ρ c))
theorem w3_arg0 (c : Dev nD) : W3 m ρ c (Proc.devRef .tc main_arg0) = m ((c.tc : Thread nD τ).loc main_arg0) :=
  (s02_arg0 (W2 m ρ c)).trans ((s01_arg0 (W1 m ρ c)).trans (s0_arg0 (W0 m ρ c)))
theorem w3_arg2 (c : Dev nD) : W3 m ρ c (Proc.devRef .tc main_arg2) = m ((c.tc : Thread nD τ).loc main_arg2) :=
  (s02_arg2 (W2 m ρ c)).trans ((s01_arg2 (W1 m ρ c)).trans (s0_arg2 (W0 m ρ c)))
theorem w3_arg3 (c : Dev nD) : W3 m ρ c (Proc.devRef .tc main_arg3) = m ((c.tc : Thread nD τ).loc main_arg3) :=
  (s02_arg3 (W2 m ρ c)).trans ((s01_arg3 (W1 m ρ c)).trans (s0_arg3 (W0 m ρ c)))
theorem w3_arg4 (c : Dev nD) : W3 m ρ c (Proc.devRef .tc main_arg4) = m ((c.tc : Thread nD τ).loc main_arg4) :=
  (s02_arg4 (W2 m ρ c)).trans ((s01_arg4 (W1 m ρ c)).trans (s0_arg4 (W0 m ρ c)))
theorem w3_arg5 (c : Dev nD) : W3 m ρ c (Proc.devRef .tc main_arg5) = m ((c.tc : Thread nD τ).loc main_arg5) :=
  (s02_arg5 (W2 m ρ c)).trans ((s01_arg5 (W1 m ρ c)).trans (s0_arg5 (W0 m ρ c)))

end Early

/-! ## Through the four launches (at the extended reals) -/

variable (m : (ℓ : Loc nD τ sig) → Buf (Elt Ideal) ℓ) (ρ : Dev nD → PrngReg)

/-! ### After the first launch -/

theorem w4_dense (c : Dev nD) : W4 m ρ c (Proc.devRef .tc main_v32)
    = dense1 (F := Ideal) (m ((c.tc : Thread nD τ).loc main_arg0)) (m ((c.tc : Thread nD τ).loc main_arg2)) :=
  (W4_arr m ρ c 2).trans ((Cert.KernelIdeal.Region0.region0_value (V3 m ρ) c).trans (dense1_congr (w3_arg0 m ρ c) (w3_arg2 m ρ c)))
theorem w4_src (c : Dev nD) : W4 m ρ c (Proc.devRef .tc main_v3) = srcOf (m ((c.tc : Thread nD τ).loc main_arg1)) :=
  (W4_of_ne m ρ c main_v3 (by decide)).trans (w3_src m ρ c)
theorem w4_dst (c : Dev nD) : W4 m ρ c (Proc.devRef .tc main_v6) = dstOf (m ((c.tc : Thread nD τ).loc main_arg1)) :=
  (W4_of_ne m ρ c main_v6 (by decide)).trans (w3_dst m ρ c)
theorem w4_norm (c : Dev nD) : W4 m ρ c (Proc.devRef .tc main_v31) = edgeNorm (m ((c.tc : Thread nD τ).loc main_arg1)) :=
  (W4_of_ne m ρ c main_v31 (by decide)).trans (w3_norm m ρ c)
theorem w4_arg3 (c : Dev nD) : W4 m ρ c (Proc.devRef .tc main_arg3) = m ((c.tc : Thread nD τ).loc main_arg3) :=
  (W4_of_ne m ρ c main_arg3 (by decide)).trans (w3_arg3 m ρ c)
theorem w4_arg4 (c : Dev nD) : W4 m ρ c (Proc.devRef .tc main_arg4) = m ((c.tc : Thread nD τ).loc main_arg4) :=
  (W4_of_ne m ρ c main_arg4 (by decide)).trans (w3_arg4 m ρ c)
theorem w4_arg5 (c : Dev nD) : W4 m ρ c (Proc.devRef .tc main_arg5) = m ((c.tc : Thread nD τ).loc main_arg5) :=
  (W4_of_ne m ρ c main_arg5 (by decide)).trans (w3_arg5 m ρ c)

/-! ### Before the second launch -/

theorem w5_agg (c : Dev nD) : W5 m ρ c (Proc.devRef .tc main_v45)
    = aggregate96 (dense1 (F := Ideal) (m ((c.tc : Thread nD τ).loc main_arg0)) (m ((c.tc : Thread nD τ).loc main_arg2)))
        (srcOf (m ((c.tc : Thread nD τ).loc main_arg1))) (dstOf (m ((c.tc : Thread nD τ).loc main_arg1)))
        (edgeNorm (m ((c.tc : Thread nD τ).loc main_arg1))) :=
  (s1_agg (W4 m ρ c)).trans (aggregate96_congr (w4_dense m ρ c) (w4_src m ρ c) (w4_dst m ρ c) (w4_norm m ρ c))
theorem w5_row (c : Dev nD) : W5 m ρ c (Proc.devRef .tc main_v46)
    = shapeCast S1x96 (m ((c.tc : Thread nD τ).loc main_arg3)) shapeCasts_S96_S1x96 :=
  (s1_row (W4 m ρ c)).trans (congrArg (fun x => shapeCast S1x96 x shapeCasts_S96_S1x96) (w4_arg3 m ρ c))
theorem w5_src (c : Dev nD) : W5 m ρ c (Proc.devRef .tc main_v3) = srcOf (m ((c.tc : Thread nD τ).loc main_arg1)) :=
  (s1_src (W4 m ρ c)).trans (w4_src m ρ c)
theorem w5_dst (c : Dev nD) : W5 m ρ c (Proc.devRef .tc main_v6) = dstOf (m ((c.tc : Thread nD τ).loc main_arg1)) :=
  (s1_dst (W4 m ρ c)).trans (w4_dst m ρ c)
theorem w5_norm (c : Dev nD) : W5 m ρ c (Proc.devRef .tc main_v31) = edgeNorm (m ((c.tc : Thread nD τ).loc main_arg1)) :=
  (s1_norm (W4 m ρ c)).trans (w4_norm m ρ c)
theorem w5_arg4 (c : Dev nD) : W5 m ρ c (Proc.devRef .tc main_arg4) = m ((c.tc : Thread nD τ).loc main_arg4) :=
  (s1_arg4 (W4 m ρ c)).trans (w4_arg4 m ρ c)
theorem w5_arg5 (c : Dev nD) : W5 m ρ c (Proc.devRef .tc main_arg5) = m ((c.tc : Thread nD τ).loc main_arg5) :=
  (s1_arg5 (W4 m ρ c)).trans (w4_arg5 m ρ c)

/-! ### After the second launch -/

theorem w6_hidden (c : Dev nD) : W6 m ρ c (Proc.devRef .tc main_v47)
    = hiddenOf (F := Ideal) (m ((c.tc : Thread nD τ).loc main_arg0)) (m ((c.tc : Thread nD τ).loc main_arg1))
        (m ((c.tc : Thread nD τ).loc main_arg2)) (m ((c.tc : Thread nD τ).loc main_arg3)) :=
  (W6_arr m ρ c 2).trans ((Cert.KernelIdeal.Region1.region1_value (V5 m ρ) c).trans (biasRelu_congr (w5_agg m ρ c) (w5_row m ρ c)))
theorem w6_src (c : Dev nD) : W6 m ρ c (Proc.devRef .tc main_v3) = srcOf (m ((c.tc : Thread nD τ).loc main_arg1)) :=
  (W6_of_ne m ρ c main_v3 (by decide)).trans (w5_src m ρ c)
theorem w6_dst (c : Dev nD) : W6 m ρ c (Proc.devRef .tc main_v6) = dstOf (m ((c.tc : Thread nD τ).loc main_arg1)) :=
  (W6_of_ne m ρ c main_v6 (by decide)).trans (w5_dst m ρ c)
theorem w6_norm (c : Dev nD) : W6 m ρ c (Proc.devRef .tc main_v31) = edgeNorm (m ((c.tc : Thread nD τ).loc main_arg1)) :=
  (W6_of_ne m ρ c main_v31 (by decide)).trans (w5_norm m ρ c)
theorem w6_arg4 (c : Dev nD) : W6 m ρ c (Proc.devRef .tc main_arg4) = m ((c.tc : Thread nD τ).loc main_arg4) :=
  (W6_of_ne m ρ c main_arg4 (by decide)).trans (w5_arg4 m ρ c)
theorem w6_arg5 (c : Dev nD) : W6 m ρ c (Proc.devRef .tc main_arg5) = m ((c.tc : Thread nD τ).loc main_arg5) :=
  (W6_of_ne m ρ c main_arg5 (by decide)).trans (w5_arg5 m ρ c)

/-! ### After the third launch -/

theorem w7_dense (c : Dev nD) : W7 m ρ c (Proc.devRef .tc main_v48)
    = dense2 (F := Ideal) (hiddenOf (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4)) :=
  (W7_arr m ρ c 2).trans ((Cert.KernelIdeal.Region2.region2_value (V6 m ρ) c).trans (dense2_congr (w6_hidden m ρ c) (w6_arg4 m ρ c)))
theorem w7_src (c : Dev nD) : W7 m ρ c (Proc.devRef .tc main_v3) = srcOf (m ((c.tc : Thread nD τ).loc main_arg1)) :=
  (W7_of_ne m ρ c main_v3 (by decide)).trans (w6_src m ρ c)
theorem w7_dst (c : Dev nD) : W7 m ρ c (Proc.devRef .tc main_v6) = dstOf (m ((c.tc : Thread nD τ).loc main_arg1)) :=
  (W7_of_ne m ρ c main_v6 (by decide)).trans (w6_dst m ρ c)
theorem w7_norm (c : Dev nD) : W7 m ρ c (Proc.devRef .tc main_v31) = edgeNorm (m ((c.tc : Thread nD τ).loc main_arg1)) :=
  (W7_of_ne m ρ c main_v31 (by decide)).trans (w6_norm m ρ c)
theorem w7_arg5 (c : Dev nD) : W7 m ρ c (Proc.devRef .tc main_arg5) = m ((c.tc : Thread nD τ).loc main_arg5) :=
  (W7_of_ne m ρ c main_arg5 (by decide)).trans (w6_arg5 m ρ c)

/-! ### Before the fourth launch -/

theorem w8_agg (c : Dev nD) : W8 m ρ c (Proc.devRef .tc main_v61)
    = aggregate40 (dense2 (F := Ideal) (hiddenOf (m ((c.tc : Thread nD τ).loc main_arg0)) (m ((c.tc : Thread nD τ).loc main_arg1))
          (m ((c.tc : Thread nD τ).loc main_arg2)) (m ((c.tc : Thread nD τ).loc main_arg3))) (m ((c.tc : Thread nD τ).loc main_arg4)))
        (srcOf (m ((c.tc : Thread nD τ).loc main_arg1))) (dstOf (m ((c.tc : Thread nD τ).loc main_arg1)))
        (edgeNorm (m ((c.tc : Thread nD τ).loc main_arg1))) :=
  (s3_agg (W7 m ρ c)).trans (aggregate40_congr (w7_dense m ρ c) (w7_src m ρ c) (w7_dst m ρ c) (w7_norm m ρ c))
theorem w8_row (c : Dev nD) : W8 m ρ c (Proc.devRef .tc main_v62)
    = shapeCast S1x40 (m ((c.tc : Thread nD τ).loc main_arg5)) shapeCasts_S40_S1x40 :=
  (s3_row (W7 m ρ c)).trans (congrArg (fun x => shapeCast S1x40 x shapeCasts_S40_S1x40) (w7_arg5 m ρ c))

/-! ### After the fourth launch: the two results -/

/-- The first result buffer ends at the logits of the six arguments. -/
theorem w9_logits (c : Dev nD) : W9 m ρ c (Proc.devRef .tc main_v63_0)
    = logitsOf (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) :=
  (W9_arr m ρ c 2).trans ((Cert.KernelIdeal.Region3.region3_logits (V8 m ρ) c).trans (biasAdd_congr (w8_agg m ρ c) (w8_row m ρ c)))

/-- The second result buffer ends at their row-wise log-softmax. -/
theorem w9_logprobs (c : Dev nD) : W9 m ρ c (Proc.devRef .tc main_v63_1)
    = logprobsOf (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) :=
  (W9_arr m ρ c 3).trans ((Cert.KernelIdeal.Region3.region3_logprob (V8 m ρ) c).trans
    (congrArg (logSoftmax (F := Ideal)) (biasAdd_congr (w8_agg m ρ c) (w8_row m ρ c))))

end Cert.KernelIdeal.Fold

end
-- ==== Proof.RefStretchLists.lean ====
/-
  The reference program's 137 host operations in fifteen stretches, in program order, each stretch one step of the two-layer
  graph convolution: the edge list; a dense product; the degrees; the edge normalisation; the aggregation; bias and rectifier;
  then for layer two the dense product, the degrees and the normalisation once more (the reference computes them per layer),
  the aggregation, bias and logits, and the log-softmax in four steps (row maximum, shift, logarithm of the sum of exponentials,
  final subtraction). The operations are the reference's own, cut, not changed.
-/
import proofs.«115687_j9603546874307_1_alg».proof.Proof.RefOps

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- Operations 1 to 7: the edge list with a self loop per node appended: source and destination indices. -/
abbrev r1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 8 to 8: layer one's dense product. -/
abbrev r2 : List (HloOp τ sig (Elt F)) :=
  [ binary main_arg0 main_arg2 main_v7 ((fun l r => Host.dotGeneral dot_S50000x512_S512x96_S50000x96_1_0_0_1_n_n none l r) : (⟨S50000x512, .f32⟩ : BufTy).Contents (Elt F) → (⟨S512x96, .f32⟩ : BufTy).Contents (Elt F) → (⟨S50000x96, .f32⟩ : BufTy).Contents (Elt F)) ]

/-- Operations 9 to 25: the in-degrees and their inverse square roots, zero where the degree is zero. -/
abbrev r3 : List (HloOp τ sig (Elt F)) :=
  [ nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v16) (TRef.of (T := ⟨S50000, .f32⟩) main_call0_v1) (TRef.of (T := ⟨S50000, .f32⟩) main_v17) select ]

/-- Operations 26 to 44: the edge normalisation. -/
abbrev r4 : List (HloOp τ sig (Elt F)) :=
  [ nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v3 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v3 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)) ]

/-- Operations 45 to 60: layer one's aggregation along the edges. -/
abbrev r5 : List (HloOp τ sig (Elt F)) :=
  [ nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v7 main_v38 main_v39 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x96 ![0, 1] bcast_S850000x1_S850000x96_0_1 : (⟨S850000x1, .f32⟩ : BufTy).Contents (Elt F) → (⟨S850000x96, .f32⟩ : BufTy).Contents (Elt F)),
    binary main_v39 main_v41 main_v42 (mulf : (⟨S850000x96, .f32⟩ : BufTy).Contents (Elt F) → (⟨S850000x96, .f32⟩ : BufTy).Contents (Elt F) → (⟨S850000x96, .f32⟩ : BufTy).Contents (Elt F)),
    nullary main_cst_9 (constant S_ .f32 0x00000000#32),
    unary main_cst_9 main_v43 (broadcastInDim S50000x96 ![] bcast_S_S50000x96 : (⟨S_, .f32⟩ : BufTy).Contents (Elt F) → (⟨S50000x96, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)) ]

/-- Operations 61 to 66: layer one's bias row, the sum and the rectifier. -/
abbrev r6 : List (HloOp τ sig (Elt F)) :=
  [ unary main_arg3 main_v46 (broadcastInDim S1x96 ![1] bcast_S96_S1x96_1 : (⟨S96, .f32⟩ : BufTy).Contents (Elt F) → (⟨S1x96, .f32⟩ : BufTy).Contents (Elt F)),
    unary main_v46 main_v47 (broadcastInDim S50000x96 ![0, 1] bcast_S1x96_S50000x96_0_1 : (⟨S1x96, .f32⟩ : BufTy).Contents (Elt F) → (⟨S50000x96, .f32⟩ : BufTy).Contents (Elt F)),
    binary main_v45 main_v47 main_v48 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v48) (TRef.of (T := ⟨S50000x96, .f32⟩) main_call1_v0) (TRef.of (T := ⟨S50000x96, .f32⟩) main_v49) maximumf ]

/-- Operations 67 to 67: layer two's dense product. -/
abbrev r7 : List (HloOp τ sig (Elt F)) :=
  [ binary main_v49 main_arg4 main_v50 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)) ]

/-- Operations 68 to 84: the in-degrees and their inverse square roots once more. -/
abbrev r8 : List (HloOp τ sig (Elt F)) :=
  [ nullary main_cst_10 (constant S_ .f32 0x3F800000#32),
    unary main_cst_10 main_v51 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v52 (broadcastInDim S50000 ![] bcast_S_S50000 : (⟨S_, .f32⟩ : BufTy).Contents (Elt F) → (⟨S50000, .f32⟩ : BufTy).Contents (Elt F)),
    unary main_v6 main_v53 (broadcastInDim S850000x1 ![0] bcast_S850000_S850000x1_0 : (⟨S850000, .i32⟩ : BufTy).Contents (Elt F) → (⟨S850000x1, .i32⟩ : BufTy).Contents (Elt F)),
    ternary main_v52 main_v53 main_v51 main_v54 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0x3F800000#32),
    unary main_cst_13 main_v57 (broadcastInDim S50000 ![] bcast_S_S50000 : (⟨S_, .f32⟩ : BufTy).Contents (Elt F) → (⟨S50000, .f32⟩ : BufTy).Contents (Elt F)),
    binary main_v54 main_v57 main_v58 (maximumf : (⟨S50000, .f32⟩ : BufTy).Contents (Elt F) → (⟨S50000, .f32⟩ : BufTy).Contents (Elt F) → (⟨S50000, .f32⟩ : BufTy).Contents (Elt F)),
    unary main_v58 main_v59 (Host.rsqrt : (⟨S50000, .f32⟩ : BufTy).Contents (Elt F) → (⟨S50000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v56) (TRef.of (T := ⟨S50000, .f32⟩) main_v59) (TRef.of (T := ⟨S50000, .f32⟩) main_call2_v1) (TRef.of (T := ⟨S50000, .f32⟩) main_v60) select ]

/-- Operations 85 to 103: the edge normalisation once more. -/
abbrev r9 : List (HloOp τ sig (Elt F)) :=
  [ nullary main_c_15 (constantI S_ 32 0#32),
    unary main_c_15 main_v61 (broadcastInDim S850000 ![] bcast_S_S850000 : (⟨S_, .i32⟩ : BufTy).Contents (Elt F) → (⟨S850000, .i32⟩ : BufTy).Contents (Elt F)),
    binary main_v3 main_v61 main_v62 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v63 (broadcastInDim S850000 ![] bcast_S_S850000 : (⟨S_, .i32⟩ : BufTy).Contents (Elt F) → (⟨S850000, .i32⟩ : BufTy).Contents (Elt F)),
    binary main_v3 main_v63 main_v64 (addi : (⟨S850000, .i32⟩ : BufTy).Contents (Elt F) → (⟨S850000, .i32⟩ : BufTy).Contents (Elt F) → (⟨S850000, .i32⟩ : BufTy).Contents (Elt F)),
    ternary main_v62 main_v64 main_v3 main_v65 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v65 main_v66 (broadcastInDim S850000x1 ![0] bcast_S850000_S850000x1_0 : (⟨S850000, .i32⟩ : BufTy).Contents (Elt F) → (⟨S850000x1, .i32⟩ : BufTy).Contents (Elt F)),
    binary main_v60 main_v66 main_v67 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v68 (broadcastInDim S850000 ![] bcast_S_S850000 : (⟨S_, .i32⟩ : BufTy).Contents (Elt F) → (⟨S850000, .i32⟩ : BufTy).Contents (Elt F)),
    binary main_v6 main_v68 main_v69 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v70 (broadcastInDim S850000 ![] bcast_S_S850000 : (⟨S_, .i32⟩ : BufTy).Contents (Elt F) → (⟨S850000, .i32⟩ : BufTy).Contents (Elt F)),
    binary main_v6 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v6 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v60 main_v73 main_v74 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v67 main_v74 main_v75 (mulf : (⟨S850000, .f32⟩ : BufTy).Contents (Elt F) → (⟨S850000, .f32⟩ : BufTy).Contents (Elt F) → (⟨S850000, .f32⟩ : BufTy).Contents (Elt F)) ]

/-- Operations 104 to 119: layer two's aggregation along the edges. -/
abbrev r10 : List (HloOp τ sig (Elt F)) :=
  [ nullary main_c_19 (constantI S_ 32 0#32),
    unary main_c_19 main_v76 (broadcastInDim S850000 ![] bcast_S_S850000 : (⟨S_, .i32⟩ : BufTy).Contents (Elt F) → (⟨S850000, .i32⟩ : BufTy).Contents (Elt F)),
    binary main_v3 main_v76 main_v77 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v78 (broadcastInDim S850000 ![] bcast_S_S850000 : (⟨S_, .i32⟩ : BufTy).Contents (Elt F) → (⟨S850000, .i32⟩ : BufTy).Contents (Elt F)),
    binary main_v3 main_v78 main_v79 (addi : (⟨S850000, .i32⟩ : BufTy).Contents (Elt F) → (⟨S850000, .i32⟩ : BufTy).Contents (Elt F) → (⟨S850000, .i32⟩ : BufTy).Contents (Elt F)),
    ternary main_v77 main_v79 main_v3 main_v80 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v80 main_v81 (broadcastInDim S850000x1 ![0] bcast_S850000_S850000x1_0 : (⟨S850000, .i32⟩ : BufTy).Contents (Elt F) → (⟨S850000x1, .i32⟩ : BufTy).Contents (Elt F)),
    binary main_v50 main_v81 main_v82 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v75 main_v83 (broadcastInDim S850000x1 ![0] bcast_S850000_S850000x1_0 : (⟨S850000, .f32⟩ : BufTy).Contents (Elt F) → (⟨S850000x1, .f32⟩ : BufTy).Contents (Elt F)),
    unary main_v83 main_v84 (broadcastInDim S850000x40 ![0, 1] bcast_S850000x1_S850000x40_0_1 : (⟨S850000x1, .f32⟩ : BufTy).Contents (Elt F) → (⟨S850000x40, .f32⟩ : BufTy).Contents (Elt F)),
    binary main_v82 main_v84 main_v85 (mulf : (⟨S850000x40, .f32⟩ : BufTy).Contents (Elt F) → (⟨S850000x40, .f32⟩ : BufTy).Contents (Elt F) → (⟨S850000x40, .f32⟩ : BufTy).Contents (Elt F)),
    nullary main_cst_21 (constant S_ .f32 0x00000000#32),
    unary main_cst_21 main_v86 (broadcastInDim S50000x40 ![] bcast_S_S50000x40 : (⟨S_, .f32⟩ : BufTy).Contents (Elt F) → (⟨S50000x40, .f32⟩ : BufTy).Contents (Elt F)),
    unary main_v6 main_v87 (broadcastInDim S850000x1 ![0] bcast_S850000_S850000x1_0 : (⟨S850000, .i32⟩ : BufTy).Contents (Elt F) → (⟨S850000x1, .i32⟩ : BufTy).Contents (Elt F)),
    ternary main_v86 main_v87 main_v85 main_v88 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)) ]

/-- Operations 120 to 122: layer two's bias row and the logits. -/
abbrev r11 : List (HloOp τ sig (Elt F)) :=
  [ unary main_arg5 main_v89 (broadcastInDim S1x40 ![1] bcast_S40_S1x40_1 : (⟨S40, .f32⟩ : BufTy).Contents (Elt F) → (⟨S1x40, .f32⟩ : BufTy).Contents (Elt F)),
    unary main_v89 main_v90 (broadcastInDim S50000x40 ![0, 1] bcast_S1x40_S50000x40_0_1 : (⟨S1x40, .f32⟩ : BufTy).Contents (Elt F) → (⟨S50000x40, .f32⟩ : BufTy).Contents (Elt F)),
    binary main_v88 main_v90 main_v91 (addf : (⟨S50000x40, .f32⟩ : BufTy).Contents (Elt F) → (⟨S50000x40, .f32⟩ : BufTy).Contents (Elt F) → (⟨S50000x40, .f32⟩ : BufTy).Contents (Elt F)) ]

/-- Operations 123 to 127: the log-softmax's row maximum. -/
abbrev r12 : List (HloOp τ sig (Elt F)) :=
  [ TRef.nullary (TRef.of (T := ⟨S_, .f32⟩) main_call3_cst) (constant S_ .f32 0xFF800000#32),
    TRef.binary (TRef.of (T := ⟨S50000x40, .f32⟩) main_v91) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf ]

/-- Operations 128 to 130: the logits shifted by their row maximum. -/
abbrev r13 : List (HloOp τ sig (Elt F)) :=
  [ TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v91) (TRef.of (T := ⟨S50000x40, .f32⟩) main_call3_v4) (TRef.of (T := ⟨S50000x40, .f32⟩) main_call3_v5) subf ]

/-- Operations 131 to 135: the logarithm of each row's sum of exponentials. -/
abbrev r14 : List (HloOp τ sig (Elt F)) :=
  [ TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log ]

/-- Operations 136 to 137: the log-probabilities. -/
abbrev r15 : List (HloOp τ sig (Elt F)) :=
  [ TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v92) subf ]

end Cert.ReferenceIdeal.Stretch

end
-- ==== Proof.RefStretches.lean ====
/-
  The reference's fifteen stretches together are its operation list, so the buffers after the whole list are those after the
  fifteen stretches in turn.
-/
import proofs.«115687_j9603546874307_1_alg».proof.Proof.RefStretchLists

set_option maxRecDepth 16384

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- The buffers after two lists of operations in turn. -/
theorem after_append (l1 l2 : List (HloOp τ sig (Elt F))) (V : Valuation τ sig (Elt F)) :
    after (l1 ++ l2) V = after l2 (after l1 V) := by
  induction l1 generalizing V with
  | nil => rfl
  | cons op l ih => simp only [List.cons_append, after_cons, ih]

set_option maxHeartbeats 4000000 in
/-- The fifteen stretches, in order, are the reference's operation list. -/
theorem ops_eq : (Cert.ReferenceIdeal.Ops.ops (F := F))
    = r1 ++ (r2 ++ (r3 ++ (r4 ++ (r5 ++ (r6 ++ (r7 ++ (r8 ++ (r9 ++ (r10 ++ (r11 ++ (r12 ++ (r13 ++ (r14 ++ r15))))))))))))) := rfl

/-- So the buffers after the whole list are those after the fifteen stretches in turn. -/
theorem after_ops (V : Valuation τ sig (Elt F)) :
    after (Cert.ReferenceIdeal.Ops.ops (F := F)) V
      = after r15 (after r14 (after r13 (after r12 (after r11 (after r10 (after r9 (after r8 (after r7 (after r6 (after r5 (after r4 (after r3
          (after r2 (after r1 V)))))))))))))) := by
  rw [ops_eq]
  simp only [after_append]

end Cert.ReferenceIdeal.Stretch

end
-- ==== Proof.RefFoldHost.lean ====
/-
  The reference's twelve stretches, one stretch and one buffer at a time, over ANY contents the stretch is entered with:
  after the stretch this buffer holds that function of the contents' buffers (the functions are the ones the kernel program's
  host stretches and launches were read at: sources, destinations, inverse square root of the degree, edge normalisation,
  aggregation, dense product, bias and rectifier, bias, log-softmax). The reference makes the bias row by a broadcast along
  the lane axis; that is left as it is here.
-/
import proofs.«115687_j9603546874307_1_alg».proof.Proof.RefStretches
import proofs.«115687_j9603546874307_1_alg».proof.Proof.Spec
import proofs.«115687_j9603546874307_1_alg».proof.Proof.FoldHost
import Idealize.ShloMosaic.Lib.StableHlo.Run

set_option maxRecDepth 16384

noncomputable section

namespace Cert.ReferenceIdeal.Stretch

open Cert.ReferenceIdeal Cert.ReferenceIdeal.Gen Idealize.ShloMosaic Idealize.ShloMosaic.TcCoe Idealize.SL.Sem Idealize.ShloMosaic.StableHlo
open Cert.GcnSpec Cert.KernelIdeal.Fold

variable {F : FTy → Type} [FloatOps F]
variable (U : Valuation τ sig (Elt F))

/-! ## What each stretch computes -/

theorem r1_src : after (r1 (F := F)) U (Proc.devRef .tc main_v3) = srcOf (U (Proc.devRef .tc main_arg1)) := by after_results; rfl
theorem r1_dst : after (r1 (F := F)) U (Proc.devRef .tc main_v6) = dstOf (U (Proc.devRef .tc main_arg1)) := by after_results; rfl
theorem r2_dense : after (r2 (F := F)) U (Proc.devRef .tc main_v7) = dense1 (U (Proc.devRef .tc main_arg0)) (U (Proc.devRef .tc main_arg2)) := by after_results; rfl
theorem r3_dinv : after (r3 (F := F)) U (Proc.devRef .tc main_v17) = dinvOf (U (Proc.devRef .tc main_v6)) := by after_results_simp; rfl
theorem r4_norm : after (r4 (F := F)) U (Proc.devRef .tc main_v32) = normOf (U (Proc.devRef .tc main_v3)) (U (Proc.devRef .tc main_v6)) (U (Proc.devRef .tc main_v17)) := by
  after_results_simp; rfl
theorem r5_agg : after (r5 (F := F)) U (Proc.devRef .tc main_v45)
    = aggregate96 (U (Proc.devRef .tc main_v7)) (U (Proc.devRef .tc main_v3)) (U (Proc.devRef .tc main_v6)) (U (Proc.devRef .tc main_v32)) := by
  after_results_simp; rfl
theorem r6_hidden : after (r6 (F := F)) U (Proc.devRef .tc main_v49)
    = biasRelu (U (Proc.devRef .tc main_v45)) (broadcastInDim S1x96 ![1] bcast_S96_S1x96_1 (U (Proc.devRef .tc main_arg3))) := by
  after_results_simp; rfl
theorem r7_dense : after (r7 (F := F)) U (Proc.devRef .tc main_v50) = dense2 (U (Proc.devRef .tc main_v49)) (U (Proc.devRef .tc main_arg4)) := by after_results; rfl
theorem r8_dinv : after (r8 (F := F)) U (Proc.devRef .tc main_v60) = dinvOf (U (Proc.devRef .tc main_v6)) := by after_results_simp; rfl
theorem r9_norm : after (r9 (F := F)) U (Proc.devRef .tc main_v75) = normOf (U (Proc.devRef .tc main_v3)) (U (Proc.devRef .tc main_v6)) (U (Proc.devRef .tc main_v60)) := by
  after_results_simp; rfl
theorem r10_agg : after (r10 (F := F)) U (Proc.devRef .tc main_v88)
    = aggregate40 (U (Proc.devRef .tc main_v50)) (U (Proc.devRef .tc main_v3)) (U (Proc.devRef .tc main_v6)) (U (Proc.devRef .tc main_v75)) := by
  after_results_simp; rfl
theorem r11_logits : after (r11 (F := F)) U (Proc.devRef .tc main_v91)
    = biasAdd (U (Proc.devRef .tc main_v88)) (broadcastInDim S1x40 ![1] bcast_S40_S1x40_1 (U (Proc.devRef .tc main_arg5))) := by
  after_results; rfl

/-! The log-softmax, in its four steps; `shiftBy`, `logSumOf` and `minusCol` name a step's function of the step before. -/

/-- A [50000, 40] array with a per-row value subtracted from every entry of the row. -/
def shiftBy (y : (⟨S50000x40, .f32⟩ : BufTy).Contents (Elt F)) (t : (⟨S50000, .f32⟩ : BufTy).Contents (Elt F)) :
    (⟨S50000x40, .f32⟩ : BufTy).Contents (Elt F) :=
  subf y (broadcastInDim S50000x40 ![0, 1] bcast_S50000x1_S50000x40_0_1 (broadcastInDim S50000x1 ![0] bcast_S50000_S50000x1_0 t))

/-- The logarithm of each row's sum of exponentials, as a column. -/
def logSumOf (s : (⟨S50000x40, .f32⟩ : BufTy).Contents (Elt F)) : (⟨S50000x1, .f32⟩ : BufTy).Contents (Elt F) :=
  Host.log (broadcastInDim S50000x1 ![0] bcast_S50000_S50000x1_0
    (Host.reduceAdd (Host.exp s) (constant (F := F) S_ .f32 0x00000000#32) reducesTo_S50000x40_S50000_d1 h_S_))

/-- A [50000, 40] array with a column subtracted from every lane. -/
def minusCol (s : (⟨S50000x40, .f32⟩ : BufTy).Contents (Elt F)) (l : (⟨S50000x1, .f32⟩ : BufTy).Contents (Elt F)) :
    (⟨S50000x40, .f32⟩ : BufTy).Contents (Elt F) :=
  subf s (broadcastInDim S50000x40 ![0, 1] bcast_S50000x1_S50000x40_0_1 l)

/-- The row-wise log-softmax is those steps in turn. -/
theorem logSoftmax_steps (y : (⟨S50000x40, .f32⟩ : BufTy).Contents (Elt F)) :
    logSoftmax y = minusCol (shiftBy y (rowMax y)) (logSumOf (shiftBy y (rowMax y))) := rfl

/-! The row maximum is a fold over every entry of the array. Its operand and its result pass through the outlined callee's
    typed buffers, which hold what they are given; those facts are stated first and used to clear the goal before it is
    compared, so that the fold itself is never opened. -/

theorem held_logits : (TRef.of (T := ⟨S50000x40, .f32⟩) main_v91).ofBuf (Val := Elt F) (U (Proc.devRef .tc main_v91))
    = U (Proc.devRef .tc main_v91) := rfl
theorem held_init (v : (⟨S_, .f32⟩ : BufTy).Contents (Elt F)) :
    (TRef.of (T := ⟨S_, .f32⟩) main_call3_cst_0).ofBuf (Val := Elt F) ((TRef.of (T := ⟨S_, .f32⟩) main_call3_cst_0).toBuf (Val := Elt F) v) = v := rfl
theorem held_fold (v : (⟨S50000, .f32⟩ : BufTy).Contents (Elt F)) :
    (TRef.of (T := ⟨S50000, .f32⟩) main_call3_v0).ofBuf (Val := Elt F) ((TRef.of (T := ⟨S50000, .f32⟩) main_call3_v0).toBuf (Val := Elt F) v) = v := rfl
theorem held_splat (v : (⟨S50000, .f32⟩ : BufTy).Contents (Elt F)) :
    (TRef.of (T := ⟨S50000, .f32⟩) main_call3_v1).ofBuf (Val := Elt F) ((TRef.of (T := ⟨S50000, .f32⟩) main_call3_v1).toBuf (Val := Elt F) v) = v := rfl
theorem held_max (v : (⟨S50000, .f32⟩ : BufTy).Contents (Elt F)) :
    (TRef.of (T := ⟨S50000, .f32⟩) main_call3_v2).toBuf (Val := Elt F) v = v := rfl

theorem r12_rowmax : after (r12 (F := F)) U (Proc.devRef .tc main_call3_v2) = rowMax (U (Proc.devRef .tc main_v91)) := by
  after_results_simp
  rw [held_max, held_splat, held_init, held_fold, held_logits]
  rfl
theorem r13_shift : after (r13 (F := F)) U (Proc.devRef .tc main_call3_v5)
    = shiftBy (U (Proc.devRef .tc main_v91)) (U (Proc.devRef .tc main_call3_v2)) := by
  after_results_simp; rfl
theorem r14_logsum : after (r14 (F := F)) U (Proc.devRef .tc main_call3_v9) = logSumOf (U (Proc.devRef .tc main_call3_v5)) := by
  after_results_simp; rfl
theorem r15_logprobs : after (r15 (F := F)) U (Proc.devRef .tc main_v92)
    = minusCol (U (Proc.devRef .tc main_call3_v5)) (U (Proc.devRef .tc main_call3_v9)) := by
  after_results_simp; rfl

end Cert.ReferenceIdeal.Stretch

end
-- ==== Proof.RefKeeps.lean ====
/-
  Which buffers each of the reference's stretches leaves alone, for the buffers a later stretch still reads: the source and
  destination indices until the last aggregation, a dense product until its aggregation, the logits through the log-softmax,
  and each argument until the stretch that reads it. After such a stretch, from any contents, the buffer holds what it held.
-/
import proofs.«115687_j9603546874307_1_alg».proof.Proof.RefStretches
import Idealize.ShloMosaic.Lib.StableHlo.Run

set_option maxRecDepth 16384

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]
variable (U : Valuation τ sig (Elt F))

theorem r1_keep_arg0 : after (r1 (F := F)) U (Proc.devRef .tc main_arg0) = U (Proc.devRef .tc main_arg0) := by after_results
theorem r1_keep_arg2 : after (r1 (F := F)) U (Proc.devRef .tc main_arg2) = U (Proc.devRef .tc main_arg2) := by after_results
theorem r1_keep_arg3 : after (r1 (F := F)) U (Proc.devRef .tc main_arg3) = U (Proc.devRef .tc main_arg3) := by after_results
theorem r1_keep_arg4 : after (r1 (F := F)) U (Proc.devRef .tc main_arg4) = U (Proc.devRef .tc main_arg4) := by after_results
theorem r1_keep_arg5 : after (r1 (F := F)) U (Proc.devRef .tc main_arg5) = U (Proc.devRef .tc main_arg5) := by after_results
theorem r2_keep_v3 : after (r2 (F := F)) U (Proc.devRef .tc main_v3) = U (Proc.devRef .tc main_v3) := by after_results
theorem r2_keep_v6 : after (r2 (F := F)) U (Proc.devRef .tc main_v6) = U (Proc.devRef .tc main_v6) := by after_results
theorem r2_keep_arg3 : after (r2 (F := F)) U (Proc.devRef .tc main_arg3) = U (Proc.devRef .tc main_arg3) := by after_results
theorem r2_keep_arg4 : after (r2 (F := F)) U (Proc.devRef .tc main_arg4) = U (Proc.devRef .tc main_arg4) := by after_results
theorem r2_keep_arg5 : after (r2 (F := F)) U (Proc.devRef .tc main_arg5) = U (Proc.devRef .tc main_arg5) := by after_results
theorem r3_keep_v3 : after (r3 (F := F)) U (Proc.devRef .tc main_v3) = U (Proc.devRef .tc main_v3) := by after_results
theorem r3_keep_v6 : after (r3 (F := F)) U (Proc.devRef .tc main_v6) = U (Proc.devRef .tc main_v6) := by after_results
theorem r3_keep_v7 : after (r3 (F := F)) U (Proc.devRef .tc main_v7) = U (Proc.devRef .tc main_v7) := by after_results
theorem r3_keep_arg3 : after (r3 (F := F)) U (Proc.devRef .tc main_arg3) = U (Proc.devRef .tc main_arg3) := by after_results
theorem r3_keep_arg4 : after (r3 (F := F)) U (Proc.devRef .tc main_arg4) = U (Proc.devRef .tc main_arg4) := by after_results
theorem r3_keep_arg5 : after (r3 (F := F)) U (Proc.devRef .tc main_arg5) = U (Proc.devRef .tc main_arg5) := by after_results
theorem r4_keep_v3 : after (r4 (F := F)) U (Proc.devRef .tc main_v3) = U (Proc.devRef .tc main_v3) := by after_results
theorem r4_keep_v6 : after (r4 (F := F)) U (Proc.devRef .tc main_v6) = U (Proc.devRef .tc main_v6) := by after_results
theorem r4_keep_v7 : after (r4 (F := F)) U (Proc.devRef .tc main_v7) = U (Proc.devRef .tc main_v7) := by after_results
theorem r4_keep_arg3 : after (r4 (F := F)) U (Proc.devRef .tc main_arg3) = U (Proc.devRef .tc main_arg3) := by after_results
theorem r4_keep_arg4 : after (r4 (F := F)) U (Proc.devRef .tc main_arg4) = U (Proc.devRef .tc main_arg4) := by after_results
theorem r4_keep_arg5 : after (r4 (F := F)) U (Proc.devRef .tc main_arg5) = U (Proc.devRef .tc main_arg5) := by after_results
theorem r5_keep_v3 : after (r5 (F := F)) U (Proc.devRef .tc main_v3) = U (Proc.devRef .tc main_v3) := by after_results
theorem r5_keep_v6 : after (r5 (F := F)) U (Proc.devRef .tc main_v6) = U (Proc.devRef .tc main_v6) := by after_results
theorem r5_keep_arg3 : after (r5 (F := F)) U (Proc.devRef .tc main_arg3) = U (Proc.devRef .tc main_arg3) := by after_results
theorem r5_keep_arg4 : after (r5 (F := F)) U (Proc.devRef .tc main_arg4) = U (Proc.devRef .tc main_arg4) := by after_results
theorem r5_keep_arg5 : after (r5 (F := F)) U (Proc.devRef .tc main_arg5) = U (Proc.devRef .tc main_arg5) := by after_results
theorem r6_keep_v3 : after (r6 (F := F)) U (Proc.devRef .tc main_v3) = U (Proc.devRef .tc main_v3) := by after_results
theorem r6_keep_v6 : after (r6 (F := F)) U (Proc.devRef .tc main_v6) = U (Proc.devRef .tc main_v6) := by after_results
theorem r6_keep_arg4 : after (r6 (F := F)) U (Proc.devRef .tc main_arg4) = U (Proc.devRef .tc main_arg4) := by after_results
theorem r6_keep_arg5 : after (r6 (F := F)) U (Proc.devRef .tc main_arg5) = U (Proc.devRef .tc main_arg5) := by after_results
theorem r7_keep_v3 : after (r7 (F := F)) U (Proc.devRef .tc main_v3) = U (Proc.devRef .tc main_v3) := by after_results
theorem r7_keep_v6 : after (r7 (F := F)) U (Proc.devRef .tc main_v6) = U (Proc.devRef .tc main_v6) := by after_results
theorem r7_keep_arg5 : after (r7 (F := F)) U (Proc.devRef .tc main_arg5) = U (Proc.devRef .tc main_arg5) := by after_results
theorem r8_keep_v3 : after (r8 (F := F)) U (Proc.devRef .tc main_v3) = U (Proc.devRef .tc main_v3) := by after_results
theorem r8_keep_v6 : after (r8 (F := F)) U (Proc.devRef .tc main_v6) = U (Proc.devRef .tc main_v6) := by after_results
theorem r8_keep_v50 : after (r8 (F := F)) U (Proc.devRef .tc main_v50) = U (Proc.devRef .tc main_v50) := by after_results
theorem r8_keep_arg5 : after (r8 (F := F)) U (Proc.devRef .tc main_arg5) = U (Proc.devRef .tc main_arg5) := by after_results
theorem r9_keep_v3 : after (r9 (F := F)) U (Proc.devRef .tc main_v3) = U (Proc.devRef .tc main_v3) := by after_results
theorem r9_keep_v6 : after (r9 (F := F)) U (Proc.devRef .tc main_v6) = U (Proc.devRef .tc main_v6) := by after_results
theorem r9_keep_v50 : after (r9 (F := F)) U (Proc.devRef .tc main_v50) = U (Proc.devRef .tc main_v50) := by after_results
theorem r9_keep_arg5 : after (r9 (F := F)) U (Proc.devRef .tc main_arg5) = U (Proc.devRef .tc main_arg5) := by after_results
theorem r10_keep_arg5 : after (r10 (F := F)) U (Proc.devRef .tc main_arg5) = U (Proc.devRef .tc main_arg5) := by after_results
theorem r12_keep_v91 : after (r12 (F := F)) U (Proc.devRef .tc main_v91) = U (Proc.devRef .tc main_v91) := by after_results
theorem r13_keep_v91 : after (r13 (F := F)) U (Proc.devRef .tc main_v91) = U (Proc.devRef .tc main_v91) := by after_results
theorem r14_keep_v91 : after (r14 (F := F)) U (Proc.devRef .tc main_v91) = U (Proc.devRef .tc main_v91) := by after_results
theorem r14_keep_call3_v5 : after (r14 (F := F)) U (Proc.devRef .tc main_call3_v5) = U (Proc.devRef .tc main_call3_v5) := by after_results
theorem r15_keep_v91 : after (r15 (F := F)) U (Proc.devRef .tc main_v91) = U (Proc.devRef .tc main_v91) := by after_results

end Cert.ReferenceIdeal.Stretch

end
-- ==== Proof.RowBias.lean ====
/-
  The bias vector as a one-row array. The kernel's program reshapes the vector [n] to the array [1, n]; the reference
  broadcasts it along axis 1 into [1, n]. Both put entry q of the vector at (0, q): a reshape keeps row-major
  positions, and (0, q) sits at position 0 * n + q = q; a broadcast along axis 1 reads the vector at the index's
  coordinate on axis 1. So the two one-row arrays are equal, for the bias of each layer (n = 96 and n = 40).
-/
import proofs.«115687_j9603546874307_1_alg».proof.Proof.Gen.KernelIdeal
import proofs.«115687_j9603546874307_1_alg».proof.Proof.Gen.ReferenceIdeal
import Idealize.ShloMosaic.Lib.Pipeline.Value
import Idealize.ShloMosaic.Lib.ValueIdx

noncomputable section

namespace Cert.GcnSpec.RowBias

open Idealize.ShloMosaic Idealize.ShloMosaic.TcCoe Idealize.SL.Sem

variable {F : FTy → Type} [FloatOps F]

/-- Layer one's bias [96] as the row [1, 96]: the reshape and the broadcast along axis 1 agree, entry by entry. -/
theorem row96 (x : (⟨Cert.ReferenceIdeal.S96, .f32⟩ : BufTy).Contents (Elt F)) :
    shapeCast Cert.KernelIdeal.S1x96 x Cert.KernelIdeal.Gen.shapeCasts_S96_S1x96
      = broadcastInDim Cert.ReferenceIdeal.S1x96 ![1] Cert.ReferenceIdeal.Gen.bcast_S96_S1x96_1 x := by
  funext i
  have hi0 : (i 0).val < 1 := (i 0).isLt
  have hi1 : (i 1).val < 96 := (i 1).isLt
  -- both sides read the vector at the index's second coordinate
  have hl : shapeCast Cert.KernelIdeal.S1x96 x Cert.KernelIdeal.Gen.shapeCasts_S96_S1x96 i = x (ValueIdx.ix1 ⟨(i 1).val, hi1⟩) :=
    shapeCast_apply x Cert.KernelIdeal.Gen.shapeCasts_S96_S1x96 i (ValueIdx.ix1 ⟨(i 1).val, hi1⟩)
      (by rewrite [Shape.rowMajor_val_one, Shape.rowMajor_val_two]; show (i 1).val = (i 0).val * 96 + (i 1).val; omega)
  have hr : broadcastInDim Cert.ReferenceIdeal.S1x96 ![1] Cert.ReferenceIdeal.Gen.bcast_S96_S1x96_1 x i = x (ValueIdx.ix1 ⟨(i 1).val, hi1⟩) :=
    broadcastInDim_apply _ Cert.ReferenceIdeal.Gen.bcast_S96_S1x96_1 x i (ValueIdx.ix1 ⟨(i 1).val, hi1⟩) (fun a => match a with
      | ⟨0, _⟩ => by show (i 1).val = if (96 : Nat) = 1 then 0 else (i 1).val; rw [if_neg (by decide)])
  exact hl.trans hr.symm

/-- Layer two's bias [40] as the row [1, 40]: the same. -/
theorem row40 (x : (⟨Cert.ReferenceIdeal.S40, .f32⟩ : BufTy).Contents (Elt F)) :
    shapeCast Cert.KernelIdeal.S1x40 x Cert.KernelIdeal.Gen.shapeCasts_S40_S1x40
      = broadcastInDim Cert.ReferenceIdeal.S1x40 ![1] Cert.ReferenceIdeal.Gen.bcast_S40_S1x40_1 x := by
  funext i
  have hi0 : (i 0).val < 1 := (i 0).isLt
  have hi1 : (i 1).val < 40 := (i 1).isLt
  have hl : shapeCast Cert.KernelIdeal.S1x40 x Cert.KernelIdeal.Gen.shapeCasts_S40_S1x40 i = x (ValueIdx.ix1 ⟨(i 1).val, hi1⟩) :=
    shapeCast_apply x Cert.KernelIdeal.Gen.shapeCasts_S40_S1x40 i (ValueIdx.ix1 ⟨(i 1).val, hi1⟩)
      (by rewrite [Shape.rowMajor_val_one, Shape.rowMajor_val_two]; show (i 1).val = (i 0).val * 40 + (i 1).val; omega)
  have hr : broadcastInDim Cert.ReferenceIdeal.S1x40 ![1] Cert.ReferenceIdeal.Gen.bcast_S40_S1x40_1 x i = x (ValueIdx.ix1 ⟨(i 1).val, hi1⟩) :=
    broadcastInDim_apply _ Cert.ReferenceIdeal.Gen.bcast_S40_S1x40_1 x i (ValueIdx.ix1 ⟨(i 1).val, hi1⟩) (fun a => match a with
      | ⟨0, _⟩ => by show (i 1).val = if (40 : Nat) = 1 then 0 else (i 1).val; rw [if_neg (by decide)])
  exact hl.trans hr.symm

end Cert.GcnSpec.RowBias

end
-- ==== Proof.RefFold.lean ====
/-
  The reference program's two results as the closed forms of its six arguments, and its run.

  The buffers at the boundaries between the reference's fifteen stretches are walked once, as the kernel program's were:
  a stretch's output is its function of the contents before the stretch, every other buffer is what it was. Carried along
  are the source and destination indices (functions of the edge list alone) and whichever product, bias or logits a later
  stretch still reads. The degrees and the edge normalisation are computed once per layer, each time from the same
  destinations and sources, so each time they are the same functions of the edge list. The bias row, made here by a
  broadcast along the lane axis, is the reshaped vector (`RowBias`). At the end the first result is the logits and the
  second their row-wise log-softmax, the same closed forms the kernel program ends at.
-/
import proofs.«115687_j9603546874307_1_alg».proof.Proof.RefFoldHost
import proofs.«115687_j9603546874307_1_alg».proof.Proof.RefKeeps
import proofs.«115687_j9603546874307_1_alg».proof.Proof.Forms
import proofs.«115687_j9603546874307_1_alg».proof.Proof.RowBias

set_option maxRecDepth 16384

noncomputable section

namespace Cert.ReferenceIdeal.Stretch

open Cert.ReferenceIdeal Cert.ReferenceIdeal.Gen Idealize.ShloMosaic Idealize.ShloMosaic.TcCoe Idealize.SL.Sem Idealize.ShloMosaic.StableHlo
open Cert.GcnSpec Cert.KernelIdeal.Fold

variable {F : FTy → Type} [FloatOps F]
variable (U : Valuation τ sig (Elt F))

/-! ## The contents at the boundaries -/

abbrev B1 : Valuation τ sig (Elt F) := after r1 U
abbrev B2 : Valuation τ sig (Elt F) := after r2 (B1 U)
abbrev B3 : Valuation τ sig (Elt F) := after r3 (B2 U)
abbrev B4 : Valuation τ sig (Elt F) := after r4 (B3 U)
abbrev B5 : Valuation τ sig (Elt F) := after r5 (B4 U)
abbrev B6 : Valuation τ sig (Elt F) := after r6 (B5 U)
abbrev B7 : Valuation τ sig (Elt F) := after r7 (B6 U)
abbrev B8 : Valuation τ sig (Elt F) := after r8 (B7 U)
abbrev B9 : Valuation τ sig (Elt F) := after r9 (B8 U)
abbrev B10 : Valuation τ sig (Elt F) := after r10 (B9 U)
abbrev B11 : Valuation τ sig (Elt F) := after r11 (B10 U)
abbrev B12 : Valuation τ sig (Elt F) := after r12 (B11 U)
abbrev B13 : Valuation τ sig (Elt F) := after r13 (B12 U)
abbrev B14 : Valuation τ sig (Elt F) := after r14 (B13 U)
abbrev B15 : Valuation τ sig (Elt F) := after r15 (B14 U)

theorem after_ops_eq : after (Cert.ReferenceIdeal.Ops.ops (F := F)) U = B15 U := after_ops U

/-! ### The edge list's indices, carried to the last stretch that reads them -/

theorem b1_src : B1 U (Proc.devRef .tc main_v3) = srcOf (U (Proc.devRef .tc main_arg1)) := r1_src U
theorem b1_dst : B1 U (Proc.devRef .tc main_v6) = dstOf (U (Proc.devRef .tc main_arg1)) := r1_dst U
theorem b2_src : B2 U (Proc.devRef .tc main_v3) = srcOf (U (Proc.devRef .tc main_arg1)) := (r2_keep_v3 (B1 U)).trans (b1_src U)
theorem b2_dst : B2 U (Proc.devRef .tc main_v6) = dstOf (U (Proc.devRef .tc main_arg1)) := (r2_keep_v6 (B1 U)).trans (b1_dst U)
theorem b3_src : B3 U (Proc.devRef .tc main_v3) = srcOf (U (Proc.devRef .tc main_arg1)) := (r3_keep_v3 (B2 U)).trans (b2_src U)
theorem b3_dst : B3 U (Proc.devRef .tc main_v6) = dstOf (U (Proc.devRef .tc main_arg1)) := (r3_keep_v6 (B2 U)).trans (b2_dst U)
theorem b4_src : B4 U (Proc.devRef .tc main_v3) = srcOf (U (Proc.devRef .tc main_arg1)) := (r4_keep_v3 (B3 U)).trans (b3_src U)
theorem b4_dst : B4 U (Proc.devRef .tc main_v6) = dstOf (U (Proc.devRef .tc main_arg1)) := (r4_keep_v6 (B3 U)).trans (b3_dst U)
theorem b5_src : B5 U (Proc.devRef .tc main_v3) = srcOf (U (Proc.devRef .tc main_arg1)) := (r5_keep_v3 (B4 U)).trans (b4_src U)
theorem b5_dst : B5 U (Proc.devRef .tc main_v6) = dstOf (U (Proc.devRef .tc main_arg1)) := (r5_keep_v6 (B4 U)).trans (b4_dst U)
theorem b6_src : B6 U (Proc.devRef .tc main_v3) = srcOf (U (Proc.devRef .tc main_arg1)) := (r6_keep_v3 (B5 U)).trans (b5_src U)
theorem b6_dst : B6 U (Proc.devRef .tc main_v6) = dstOf (U (Proc.devRef .tc main_arg1)) := (r6_keep_v6 (B5 U)).trans (b5_dst U)
theorem b7_src : B7 U (Proc.devRef .tc main_v3) = srcOf (U (Proc.devRef .tc main_arg1)) := (r7_keep_v3 (B6 U)).trans (b6_src U)
theorem b7_dst : B7 U (Proc.devRef .tc main_v6) = dstOf (U (Proc.devRef .tc main_arg1)) := (r7_keep_v6 (B6 U)).trans (b6_dst U)
theorem b8_src : B8 U (Proc.devRef .tc main_v3) = srcOf (U (Proc.devRef .tc main_arg1)) := (r8_keep_v3 (B7 U)).trans (b7_src U)
theorem b8_dst : B8 U (Proc.devRef .tc main_v6) = dstOf (U (Proc.devRef .tc main_arg1)) := (r8_keep_v6 (B7 U)).trans (b7_dst U)
theorem b9_src : B9 U (Proc.devRef .tc main_v3) = srcOf (U (Proc.devRef .tc main_arg1)) := (r9_keep_v3 (B8 U)).trans (b8_src U)
theorem b9_dst : B9 U (Proc.devRef .tc main_v6) = dstOf (U (Proc.devRef .tc main_arg1)) := (r9_keep_v6 (B8 U)).trans (b8_dst U)

/-! ### The arguments a later stretch reads -/

theorem b1_arg0 : B1 U (Proc.devRef .tc main_arg0) = U (Proc.devRef .tc main_arg0) := r1_keep_arg0 U
theorem b1_arg2 : B1 U (Proc.devRef .tc main_arg2) = U (Proc.devRef .tc main_arg2) := r1_keep_arg2 U
theorem b5_arg3 : B5 U (Proc.devRef .tc main_arg3) = U (Proc.devRef .tc main_arg3) :=
  (r5_keep_arg3 (B4 U)).trans ((r4_keep_arg3 (B3 U)).trans ((r3_keep_arg3 (B2 U)).trans ((r2_keep_arg3 (B1 U)).trans (r1_keep_arg3 U))))
theorem b6_arg4 : B6 U (Proc.devRef .tc main_arg4) = U (Proc.devRef .tc main_arg4) :=
  (r6_keep_arg4 (B5 U)).trans ((r5_keep_arg4 (B4 U)).trans ((r4_keep_arg4 (B3 U)).trans ((r3_keep_arg4 (B2 U)).trans
    ((r2_keep_arg4 (B1 U)).trans (r1_keep_arg4 U)))))
theorem b10_arg5 : B10 U (Proc.devRef .tc main_arg5) = U (Proc.devRef .tc main_arg5) :=
  (r10_keep_arg5 (B9 U)).trans ((r9_keep_arg5 (B8 U)).trans ((r8_keep_arg5 (B7 U)).trans ((r7_keep_arg5 (B6 U)).trans
    ((r6_keep_arg5 (B5 U)).trans ((r5_keep_arg5 (B4 U)).trans ((r4_keep_arg5 (B3 U)).trans ((r3_keep_arg5 (B2 U)).trans
      ((r2_keep_arg5 (B1 U)).trans (r1_keep_arg5 U)))))))))

/-! ### Layer one -/

theorem b2_dense : B2 U (Proc.devRef .tc main_v7) = dense1 (U (Proc.devRef .tc main_arg0)) (U (Proc.devRef .tc main_arg2)) :=
  (r2_dense (B1 U)).trans (dense1_congr (b1_arg0 U) (b1_arg2 U))
theorem b4_dense : B4 U (Proc.devRef .tc main_v7) = dense1 (U (Proc.devRef .tc main_arg0)) (U (Proc.devRef .tc main_arg2)) :=
  (r4_keep_v7 (B3 U)).trans ((r3_keep_v7 (B2 U)).trans (b2_dense U))
theorem b3_dinv : B3 U (Proc.devRef .tc main_v17) = dinvOf (dstOf (U (Proc.devRef .tc main_arg1))) :=
  (r3_dinv (B2 U)).trans (congrArg dinvOf (b2_dst U))
theorem b4_norm : B4 U (Proc.devRef .tc main_v32) = edgeNorm (U (Proc.devRef .tc main_arg1)) :=
  (r4_norm (B3 U)).trans (normOf_congr (b3_src U) (b3_dst U) (b3_dinv U))
theorem b5_agg : B5 U (Proc.devRef .tc main_v45)
    = aggregate96 (dense1 (U (Proc.devRef .tc main_arg0)) (U (Proc.devRef .tc main_arg2))) (srcOf (U (Proc.devRef .tc main_arg1)))
        (dstOf (U (Proc.devRef .tc main_arg1))) (edgeNorm (U (Proc.devRef .tc main_arg1))) :=
  (r5_agg (B4 U)).trans (aggregate96_congr (b4_dense U) (b4_src U) (b4_dst U) (b4_norm U))
theorem b6_hidden : B6 U (Proc.devRef .tc main_v49)
    = hiddenOf (U (Proc.devRef .tc main_arg0)) (U (Proc.devRef .tc main_arg1)) (U (Proc.devRef .tc main_arg2)) (U (Proc.devRef .tc main_arg3)) :=
  (r6_hidden (B5 U)).trans (biasRelu_congr (b5_agg U)
    ((congrArg (broadcastInDim S1x96 ![1] bcast_S96_S1x96_1) (b5_arg3 U)).trans (Cert.GcnSpec.RowBias.row96 (U (Proc.devRef .tc main_arg3))).symm))

/-! ### Layer two -/

theorem b7_dense : B7 U (Proc.devRef .tc main_v50)
    = dense2 (hiddenOf (U (Proc.devRef .tc main_arg0)) (U (Proc.devRef .tc main_arg1)) (U (Proc.devRef .tc main_arg2)) (U (Proc.devRef .tc main_arg3)))
        (U (Proc.devRef .tc main_arg4)) :=
  (r7_dense (B6 U)).trans (dense2_congr (b6_hidden U) (b6_arg4 U))
theorem b9_dense : B9 U (Proc.devRef .tc main_v50)
    = dense2 (hiddenOf (U (Proc.devRef .tc main_arg0)) (U (Proc.devRef .tc main_arg1)) (U (Proc.devRef .tc main_arg2)) (U (Proc.devRef .tc main_arg3)))
        (U (Proc.devRef .tc main_arg4)) :=
  (r9_keep_v50 (B8 U)).trans ((r8_keep_v50 (B7 U)).trans (b7_dense U))
theorem b8_dinv : B8 U (Proc.devRef .tc main_v60) = dinvOf (dstOf (U (Proc.devRef .tc main_arg1))) :=
  (r8_dinv (B7 U)).trans (congrArg dinvOf (b7_dst U))
theorem b9_norm : B9 U (Proc.devRef .tc main_v75) = edgeNorm (U (Proc.devRef .tc main_arg1)) :=
  (r9_norm (B8 U)).trans (normOf_congr (b8_src U) (b8_dst U) (b8_dinv U))
theorem b10_agg : B10 U (Proc.devRef .tc main_v88)
    = aggregate40 (dense2 (hiddenOf (U (Proc.devRef .tc main_arg0)) (U (Proc.devRef .tc main_arg1)) (U (Proc.devRef .tc main_arg2)) (U (Proc.devRef .tc main_arg3)))
          (U (Proc.devRef .tc main_arg4))) (srcOf (U (Proc.devRef .tc main_arg1))) (dstOf (U (Proc.devRef .tc main_arg1)))
        (edgeNorm (U (Proc.devRef .tc main_arg1))) :=
  (r10_agg (B9 U)).trans (aggregate40_congr (b9_dense U) (b9_src U) (b9_dst U) (b9_norm U))

/-! ### The two results -/

theorem b11_logits : B11 U (Proc.devRef .tc main_v91)
    = logitsOf (U (Proc.devRef .tc main_arg0)) (U (Proc.devRef .tc main_arg1)) (U (Proc.devRef .tc main_arg2)) (U (Proc.devRef .tc main_arg3))
        (U (Proc.devRef .tc main_arg4)) (U (Proc.devRef .tc main_arg5)) :=
  (r11_logits (B10 U)).trans (biasAdd_congr (b10_agg U)
    ((congrArg (broadcastInDim S1x40 ![1] bcast_S40_S1x40_1) (b10_arg5 U)).trans (Cert.GcnSpec.RowBias.row40 (U (Proc.devRef .tc main_arg5))).symm))

/-! ### The log-softmax, step by step; the logits carried beside it -/

theorem b12_logits : B12 U (Proc.devRef .tc main_v91) = logitsOf (U (Proc.devRef .tc main_arg0)) (U (Proc.devRef .tc main_arg1)) (U (Proc.devRef .tc main_arg2)) (U (Proc.devRef .tc main_arg3))
        (U (Proc.devRef .tc main_arg4)) (U (Proc.devRef .tc main_arg5)) := (r12_keep_v91 (B11 U)).trans (b11_logits U)
theorem b13_logits : B13 U (Proc.devRef .tc main_v91) = logitsOf (U (Proc.devRef .tc main_arg0)) (U (Proc.devRef .tc main_arg1)) (U (Proc.devRef .tc main_arg2)) (U (Proc.devRef .tc main_arg3))
        (U (Proc.devRef .tc main_arg4)) (U (Proc.devRef .tc main_arg5)) := (r13_keep_v91 (B12 U)).trans (b12_logits U)
theorem b14_logits : B14 U (Proc.devRef .tc main_v91) = logitsOf (U (Proc.devRef .tc main_arg0)) (U (Proc.devRef .tc main_arg1)) (U (Proc.devRef .tc main_arg2)) (U (Proc.devRef .tc main_arg3))
        (U (Proc.devRef .tc main_arg4)) (U (Proc.devRef .tc main_arg5)) := (r14_keep_v91 (B13 U)).trans (b13_logits U)
theorem b15_logits : B15 U (Proc.devRef .tc main_v91) = logitsOf (U (Proc.devRef .tc main_arg0)) (U (Proc.devRef .tc main_arg1)) (U (Proc.devRef .tc main_arg2)) (U (Proc.devRef .tc main_arg3))
        (U (Proc.devRef .tc main_arg4)) (U (Proc.devRef .tc main_arg5)) := (r15_keep_v91 (B14 U)).trans (b14_logits U)

theorem b12_rowmax : B12 U (Proc.devRef .tc main_call3_v2) = rowMax (logitsOf (U (Proc.devRef .tc main_arg0)) (U (Proc.devRef .tc main_arg1)) (U (Proc.devRef .tc main_arg2)) (U (Proc.devRef .tc main_arg3))
        (U (Proc.devRef .tc main_arg4)) (U (Proc.devRef .tc main_arg5))) :=
  (r12_rowmax (B11 U)).trans (congrArg rowMax (b11_logits U))
theorem b13_shift : B13 U (Proc.devRef .tc main_call3_v5)
    = shiftBy (logitsOf (U (Proc.devRef .tc main_arg0)) (U (Proc.devRef .tc main_arg1)) (U (Proc.devRef .tc main_arg2)) (U (Proc.devRef .tc main_arg3))
        (U (Proc.devRef .tc main_arg4)) (U (Proc.devRef .tc main_arg5))) (rowMax (logitsOf (U (Proc.devRef .tc main_arg0)) (U (Proc.devRef .tc main_arg1)) (U (Proc.devRef .tc main_arg2)) (U (Proc.devRef .tc main_arg3))
        (U (Proc.devRef .tc main_arg4)) (U (Proc.devRef .tc main_arg5)))) :=
  (r13_shift (B12 U)).trans (by rw [b12_logits U, b12_rowmax U])
theorem b14_shift : B14 U (Proc.devRef .tc main_call3_v5)
    = shiftBy (logitsOf (U (Proc.devRef .tc main_arg0)) (U (Proc.devRef .tc main_arg1)) (U (Proc.devRef .tc main_arg2)) (U (Proc.devRef .tc main_arg3))
        (U (Proc.devRef .tc main_arg4)) (U (Proc.devRef .tc main_arg5))) (rowMax (logitsOf (U (Proc.devRef .tc main_arg0)) (U (Proc.devRef .tc main_arg1)) (U (Proc.devRef .tc main_arg2)) (U (Proc.devRef .tc main_arg3))
        (U (Proc.devRef .tc main_arg4)) (U (Proc.devRef .tc main_arg5)))) :=
  (r14_keep_call3_v5 (B13 U)).trans (b13_shift U)
theorem b14_logsum : B14 U (Proc.devRef .tc main_call3_v9)
    = logSumOf (shiftBy (logitsOf (U (Proc.devRef .tc main_arg0)) (U (Proc.devRef .tc main_arg1)) (U (Proc.devRef .tc main_arg2)) (U (Proc.devRef .tc main_arg3))
        (U (Proc.devRef .tc main_arg4)) (U (Proc.devRef .tc main_arg5))) (rowMax (logitsOf (U (Proc.devRef .tc main_arg0)) (U (Proc.devRef .tc main_arg1)) (U (Proc.devRef .tc main_arg2)) (U (Proc.devRef .tc main_arg3))
        (U (Proc.devRef .tc main_arg4)) (U (Proc.devRef .tc main_arg5))))) :=
  (r14_logsum (B13 U)).trans (congrArg logSumOf (b13_shift U))
theorem b15_logprobs : B15 U (Proc.devRef .tc main_v92) = logprobsOf (U (Proc.devRef .tc main_arg0)) (U (Proc.devRef .tc main_arg1)) (U (Proc.devRef .tc main_arg2)) (U (Proc.devRef .tc main_arg3))
        (U (Proc.devRef .tc main_arg4)) (U (Proc.devRef .tc main_arg5)) := by
  refine (r15_logprobs (B14 U)).trans ?_
  rw [b14_shift U, b14_logsum U]
  exact (logSoftmax_steps (logitsOf (U (Proc.devRef .tc main_arg0)) (U (Proc.devRef .tc main_arg1)) (U (Proc.devRef .tc main_arg2)) (U (Proc.devRef .tc main_arg3))
        (U (Proc.devRef .tc main_arg4)) (U (Proc.devRef .tc main_arg5)))).symm

/-- After the whole operation list the first result buffer holds the logits of the arguments. -/
theorem ref_logits : after (Cert.ReferenceIdeal.Ops.ops (F := F)) U (Proc.devRef .tc main_v91) = logitsOf (U (Proc.devRef .tc main_arg0)) (U (Proc.devRef .tc main_arg1)) (U (Proc.devRef .tc main_arg2)) (U (Proc.devRef .tc main_arg3))
        (U (Proc.devRef .tc main_arg4)) (U (Proc.devRef .tc main_arg5)) :=
  (congrFun (after_ops_eq U) (Proc.devRef .tc main_v91)).trans (b15_logits U)

/-- … and the second their row-wise log-softmax. -/
theorem ref_logprobs : after (Cert.ReferenceIdeal.Ops.ops (F := F)) U (Proc.devRef .tc main_v92) = logprobsOf (U (Proc.devRef .tc main_arg0)) (U (Proc.devRef .tc main_arg1)) (U (Proc.devRef .tc main_arg2)) (U (Proc.devRef .tc main_arg3))
        (U (Proc.devRef .tc main_arg4)) (U (Proc.devRef .tc main_arg5)) :=
  (congrFun (after_ops_eq U) (Proc.devRef .tc main_v92)).trans (b15_logprobs U)

/-! ## The arguments stay, and the run -/

set_option maxHeartbeats 8000000 in
theorem ref_arg0 : after (Cert.ReferenceIdeal.Ops.ops (F := F)) U (Proc.devRef .tc main_arg0) = U (Proc.devRef .tc main_arg0) := by after_results_simp
set_option maxHeartbeats 8000000 in
theorem ref_arg1 : after (Cert.ReferenceIdeal.Ops.ops (F := F)) U (Proc.devRef .tc main_arg1) = U (Proc.devRef .tc main_arg1) := by after_results_simp
set_option maxHeartbeats 8000000 in
theorem ref_arg2 : after (Cert.ReferenceIdeal.Ops.ops (F := F)) U (Proc.devRef .tc main_arg2) = U (Proc.devRef .tc main_arg2) := by after_results_simp
set_option maxHeartbeats 8000000 in
theorem ref_arg3 : after (Cert.ReferenceIdeal.Ops.ops (F := F)) U (Proc.devRef .tc main_arg3) = U (Proc.devRef .tc main_arg3) := by after_results_simp
set_option maxHeartbeats 8000000 in
theorem ref_arg4 : after (Cert.ReferenceIdeal.Ops.ops (F := F)) U (Proc.devRef .tc main_arg4) = U (Proc.devRef .tc main_arg4) := by after_results_simp
set_option maxHeartbeats 8000000 in
theorem ref_arg5 : after (Cert.ReferenceIdeal.Ops.ops (F := F)) U (Proc.devRef .tc main_arg5) = U (Proc.devRef .tc main_arg5) := by after_results_simp

/-- The reference's run: every weakly fair execution terminates, nothing faulting, the first result at the logits of the
    arguments, the second at their row-wise log-softmax, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = logitsOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_v92) = logprobsOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (ref_logits (launchContents m c)),
      (h c main_v92).trans (ref_logprobs (launchContents m c)),
      (h c main_arg0).trans (ref_arg0 (launchContents m c)),
      (h c main_arg1).trans (ref_arg1 (launchContents m c)),
      (h c main_arg2).trans (ref_arg2 (launchContents m c)),
      (h c main_arg3).trans (ref_arg3 (launchContents m c)),
      (h c main_arg4).trans (ref_arg4 (launchContents m c)),
      (h c main_arg5).trans (ref_arg5 (launchContents m c))⟩)
    (run_seq Cert.ReferenceIdeal.Ops.scopedRefs_eq Cert.ReferenceIdeal.Ops.scopedSems_eq defs main (fun _ => Cert.ReferenceIdeal.Ops.ops)
      Cert.ReferenceIdeal.Ops.main_eq (fun _ => Cert.ReferenceIdeal.Ops.ops_sub) m ρ)

end Cert.ReferenceIdeal.Stretch

end
-- ==== Proof.lean ====
/-
  A two-layer graph convolution, four Pallas launches among host gathers and segment sums, against its jnp reference.

  At the extended reals both programs compute, from node features X, an edge list, and two layers' weights and biases,
      H      = relu(agg(X·W1) + b1)
      logits = agg(H·W2) + b2,        log-probabilities = log-softmax of the logits row by row,
  where agg gathers rows along the edges (a self loop appended per node), scales each by 1/sqrt(deg src)·1/sqrt(deg dst) and
  sums into the destination rows. The kernel program does the two dense products, the bias-and-rectifier and the
  bias-and-log-softmax in launches over row blocks (2000 or 5000 rows a grid point) and everything else on the host with the
  reference's own operations. Block by block a launch writes the rows of ONE whole-array function (no sum is reordered:
  the feature axis is never split), so each launch's output array is the reference's whole-array operation of the launch's
  inputs; the casts to bf16 in front of the products are the identity at the extended reals, and the extra maximum with
  minus infinity in the reference's log-softmax changes nothing. Hence both programs end at `logitsOf` and `logprobsOf` of
  their arguments, which agree. No law that needs finiteness is used: the precondition is never opened.
  The three frames: the two kernel programs' are the generated frame certificates; the reference has no launch and its frame
  is its run with the results dropped. No operation was rewritten by the idealisation, so nothing is to be preserved.
-/
import proofs.«115687_j9603546874307_1_alg».proof.Defs
import proofs.«115687_j9603546874307_1_alg».proof.Proof.Gen.Kernel
import proofs.«115687_j9603546874307_1_alg».proof.Proof.Gen.Kernel.Skeleton
import proofs.«115687_j9603546874307_1_alg».proof.Proof.Gen.Kernel.Launch
import proofs.«115687_j9603546874307_1_alg».proof.Proof.Gen.Kernel.Points
import proofs.«115687_j9603546874307_1_alg».proof.Proof.Gen.Kernel.Frame
import proofs.«115687_j9603546874307_1_alg».proof.Proof.Gen.KernelIdeal
import proofs.«115687_j9603546874307_1_alg».proof.Proof.Gen.KernelIdeal.Skeleton
import proofs.«115687_j9603546874307_1_alg».proof.Proof.Gen.KernelIdeal.Launch
import proofs.«115687_j9603546874307_1_alg».proof.Proof.Gen.KernelIdeal.Points
import proofs.«115687_j9603546874307_1_alg».proof.Proof.Gen.KernelIdeal.Frame
import proofs.«115687_j9603546874307_1_alg».proof.Proof.Gen.ReferenceIdeal
import proofs.«115687_j9603546874307_1_alg».proof.Proof.Gen.Pre_finite_inputs
import proofs.«115687_j9603546874307_1_alg».proof.Proof.KRun
import proofs.«115687_j9603546874307_1_alg».proof.Proof.FoldValue
import proofs.«115687_j9603546874307_1_alg».proof.Proof.RefFold
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is host operations only: its frame is its run, the two results dropped. -/
theorem frame_reference : Cert.frame_ReferenceIdeal := fun m ρ _ =>
  (θ_run Cert.ReferenceIdeal.defs _ _).mono (fun _ h c => (h c).2.2) (Cert.ReferenceIdeal.Stretch.run (F := Ideal) m ρ)

/-- From arguments that agree both programs end at the logits and the log-probabilities of those arguments. -/
theorem algebraic : Cert.algebraic_KernelIdeal_ReferenceIdeal := by
  intro m ρ m' ρ' _ hagree
  refine ⟨fun c => Cert.KernelIdeal.Fold.logitsOf (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
      fun c => Cert.KernelIdeal.Fold.logprobsOf (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
  · -- the kernel program: its run with the results at the fold's last contents, those contents read back
    refine (θ_run Cert.KernelIdeal.defs _ _).mono (fun r h c => ?_) (Cert.KernelIdeal.GenRun.run_results (F := Ideal) m ρ)
    obtain ⟨h0, h1, hargs⟩ := h c
    exact ⟨h0.trans (Cert.KernelIdeal.Fold.w9_logits m ρ c), h1.trans (Cert.KernelIdeal.Fold.w9_logprobs m ρ c), hargs⟩
  · -- the reference: its run ends at the same closed forms of ITS arguments, which agree with the kernel program's
    refine (θ_run Cert.ReferenceIdeal.defs _ _).mono (fun r h c => ?_) (Cert.ReferenceIdeal.Stretch.run (F := Ideal) m' ρ')
    obtain ⟨h0, h1, hargs⟩ := h c
    obtain ⟨e0, e1, e2, e3, e4, e5⟩ := hagree c
    refine ⟨h0.trans ?_, h1.trans ?_, hargs⟩
    · rw [e0, e1, e2, e3, e4, e5]
    · rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
